-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x88 : Shape := ⟨2, ![500000, 88]⟩
abbrev S500000x168 : Shape := ⟨2, ![500000, 168]⟩
abbrev S128x88 : Shape := ⟨2, ![128, 88]⟩
abbrev S128 : Shape := ⟨1, ![128]⟩
abbrev S128x168 : Shape := ⟨2, ![128, 168]⟩
abbrev S128x256 : Shape := ⟨2, ![128, 256]⟩
abbrev S32x128 : Shape := ⟨2, ![32, 128]⟩
abbrev S8x32 : Shape := ⟨2, ![8, 32]⟩
abbrev S8x128 : Shape := ⟨2, ![8, 128]⟩
abbrev S8 : Shape := ⟨1, ![8]⟩
abbrev S128x16 : Shape := ⟨2, ![128, 16]⟩
abbrev S1x128 : Shape := ⟨2, ![1, 128]⟩
abbrev S1 : Shape := ⟨1, ![1]⟩
abbrev S_ : Shape := ⟨0, ![]⟩

class Facts : Prop where
  bcast_S_S500000x88 : S_.BroadcastsInDim S500000x88 (![] : Fin 0 → Fin S500000x88.rank)
  reducesTo_S500000x88_S_d0_1 : S500000x88.ReducesTo [0, 1] S_
  h_S_ : 0 < S_.numel
  bcast_S_S500000x168 : S_.BroadcastsInDim S500000x168 (![] : Fin 0 → Fin S500000x168.rank)
  reducesTo_S500000x168_S_d0_1 : S500000x168.ReducesTo [0, 1] S_
  bcast_S_S128x88 : S_.BroadcastsInDim S128x88 (![] : Fin 0 → Fin S128x88.rank)
  reducesTo_S128x88_S_d0_1 : S128x88.ReducesTo [0, 1] S_
  bcast_S_S128 : S_.BroadcastsInDim S128 (![] : Fin 0 → Fin S128.rank)
  reducesTo_S128_S_d0 : S128.ReducesTo [0] S_
  bcast_S_S128x168 : S_.BroadcastsInDim S128x168 (![] : Fin 0 → Fin S128x168.rank)
  reducesTo_S128x168_S_d0_1 : S128x168.ReducesTo [0, 1] S_
  bcast_S_S128x256 : S_.BroadcastsInDim S128x256 (![] : Fin 0 → Fin S128x256.rank)
  reducesTo_S128x256_S_d0_1 : S128x256.ReducesTo [0, 1] S_
  bcast_S_S32x128 : S_.BroadcastsInDim S32x128 (![] : Fin 0 → Fin S32x128.rank)
  reducesTo_S32x128_S_d0_1 : S32x128.ReducesTo [0, 1] S_
  bcast_S_S8x32 : S_.BroadcastsInDim S8x32 (![] : Fin 0 → Fin S8x32.rank)
  reducesTo_S8x32_S_d0_1 : S8x32.ReducesTo [0, 1] S_
  bcast_S_S8x128 : S_.BroadcastsInDim S8x128 (![] : Fin 0 → Fin S8x128.rank)
  reducesTo_S8x128_S_d0_1 : S8x128.ReducesTo [0, 1] S_
  bcast_S_S8 : S_.BroadcastsInDim S8 (![] : Fin 0 → Fin S8.rank)
  reducesTo_S8_S_d0 : S8.ReducesTo [0] S_
  bcast_S_S128x16 : S_.BroadcastsInDim S128x16 (![] : Fin 0 → Fin S128x16.rank)
  reducesTo_S128x16_S_d0_1 : S128x16.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg21 : FVec F S1 .f32) (main_v98 : IVec S_ 1) (main_v101 : IVec S1x128 1) (main_c_39 : IVec S_ 1) : IVec S_ 1 :=
  let main_v102 : IVec S_ 1 := (fun x v => Host.reduce IntOp.andi x v reducesTo_S1x128_S_d0_1 h_S_) main_v101 main_c_39
  let main_v103 : IVec S_ 1 := andi main_v98 main_v102
  let main_v104 : FVec F S1 .f32 := Host.absf main_arg21
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg18 : FVec F S128x16 .f32) (main_arg19 : FVec F S128 .f32) (main_arg20 : FVec F S1x128 .f32) (main_arg21 : FVec F S1 .f32) (main_v83 : IVec S_ 1) (main_v84 : FVec F S8 .f32) (main_cst_32 : FVec F S_ .f32) : IVec S_ 1 :=
  let main_v85 : FVec F S8 .f32 := broadcastInDim S8 ![] bcast_S_S8 main_cst_32
  let main_v86 : IVec S8 1 := cmpf .olt main_v84 main_v85
  let main_c_33 : IVec S_ 1 := constantI S_ 1 1#1
  let main_v87 : IVec S_ 1 := (fun x v => Host.reduce IntOp.andi x v reducesTo_S8_S_d0 h_S_) main_v86 main_c_33
  let main_v88 : IVec S_ 1 := andi main_v83 main_v87
  let main_v89 : FVec F S128x16 .f32 := Host.absf main_arg18
  let main_cst_34 : FVec F S_ .f32 := constant S_ .f32 0x7F800000#32
  let main_v90 : FVec F S128x16 .f32 := broadcastInDim S128x16 ![] bcast_S_S128x16 main_cst_34
  let main_v91 : IVec S128x16 1 := cmpf .olt main_v89 main_v90
  let main_c_35 : IVec S_ 1 := constantI S_ 1 1#1
  let main_v92 : IVec S_ 1 := (fun x v => Host.reduce IntOp.andi x v reducesTo_S128x16_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S1x128 .f32 := Host.absf main_arg20
  let main_cst_38 : FVec F S_ .f32 := constant S_ .f32 0x7F800000#32
  let main_v100 : FVec F S1x128 .f32 := broadcastInDim S1x128 ![] bcast_S_S1x128 main_cst_38
  let main_v101 : IVec S1x128 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S8x128 .f32) (main_arg15 : FVec F S8 .f32) (main_arg16 : FVec F S8x128 .f32) (main_arg17 : FVec F S8 .f32) (main_arg18 : FVec F S128x16 .f32) (main_arg19 : FVec F S128 .f32) (main_arg20 : FVec F S1x128 .f32) (main_arg21 : FVec F S1 .f32) (main_v63 : IVec S_ 1) (main_v67 : IVec S_ 1) : IVec S_ 1 :=
  let main_v68 : IVec S_ 1 := andi main_v63 main_v67
  let main_v69 : FVec F S8x128 .f32 := Host.absf main_arg14
  let main_cst_26 : FVec F S_ .f32 := constant S_ .f32 0x7F800000#32
  let main_v70 : FVec F S8x128 .f32 := broadcastInDim S8x128 ![] bcast_S_S8x128 main_cst_26
  let main_v71 : IVec S8x128 1 := cmpf .olt main_v69 main_v70
  let main_c_27 : IVec S_ 1 := constantI S_ 1 1#1
  let main_v72 : IVec S_ 1 := (fun x v => Host.reduce IntOp.andi x v reducesTo_S8x128_S_d0_1 h_S_) main_v71 main_c_27
  let main_v73 : IVec S_ 1 := andi main_v68 main_v72
  let main_v74 : FVec F S8 .f32 := Host.absf main_arg15
  let main_cst_28 : FVec F S_ .f32 := constant S_ .f32 0x7F800000#32
  let main_v75 : FVec F S8 .f32 := broadcastInDim S8 ![] bcast_S_S8 main_cst_28
  let main_v76 : IVec S8 1 := cmpf .olt main_v74 main_v75
  let main_c_29 : IVec S_ 1 := constantI S_ 1 1#1
  let main_v77 : IVec S_ 1 := (fun x v => Host.reduce IntOp.andi x v reducesTo_S8_S_d0 h_S_) main_v76 main_c_29
  let main_v78 : IVec S_ 1 := andi main_v73 main_v77
  let main_v79 : FVec F S8x128 .f32 := Host.absf main_arg16
  let main_cst_30 : FVec F S_ .f32 := constant S_ .f32 0x7F800000#32
  let main_v80 : FVec F S8x128 .f32 := broadcastInDim S8x128 ![] bcast_S_S8x128 main_cst_30
  let main_v81 : IVec S8x128 1 := cmpf .olt main_v79 main_v80
  let main_c_31 : IVec S_ 1 := constantI S_ 1 1#1
  let main_v82 : IVec S_ 1 := (fun x v => Host.reduce IntOp.andi x v reducesTo_S8x128_S_d0_1 h_S_) main_v81 main_c_31
  let main_v83 : IVec S_ 1 := andi main_v78 main_v82
  let main_v84 : FVec F S8 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S32x128 .f32) (main_arg12 : FVec F S8x32 .f32) (main_arg13 : FVec F S8x32 .f32) (main_arg14 : FVec F S8x128 .f32) (main_arg15 : FVec F S8 .f32) (main_arg16 : FVec F S8x128 .f32) (main_arg17 : FVec F S8 .f32) (main_arg18 : FVec F S128x16 .f32) (main_arg19 : FVec F S128 .f32) (main_arg20 : FVec F S1x128 .f32) (main_arg21 : FVec F S1 .f32) (main_v48 : IVec S_ 1) (main_v49 : FVec F S32x128 .f32) (main_v50 : FVec F S32x128 .f32) : IVec S_ 1 :=
  let main_v51 : IVec S32x128 1 := cmpf .olt main_v49 main_v50
  let main_c_19 : IVec S_ 1 := constantI S_ 1 1#1
  let main_v52 : IVec S_ 1 := (fun x v => Host.reduce IntOp.andi x v reducesTo_S32x128_S_d0_1 h_S_) main_v51 main_c_19
  let main_v53 : IVec S_ 1 := andi main_v48 main_v52
  let main_v54 : FVec F S32x128 .f32 := Host.absf main_arg11
  let main_cst_20 : FVec F S_ .f32 := constant S_ .f32 0x7F800000#32
  let main_v55 : FVec F S32x128 .f32 := broadcastInDim S32x128 ![] bcast_S_S32x128 main_cst_20
  let main_v56 : IVec S32x128 1 := cmpf .olt main_v54 main_v55
  let main_c_21 : IVec S_ 1 := constantI S_ 1 1#1
  let main_v57 : IVec S_ 1 := (fun x v => Host.reduce IntOp.andi x v reducesTo_S32x128_S_d0_1 h_S_) main_v56 main_c_21
  let main_v58 : IVec S_ 1 := andi main_v53 main_v57
  let main_v59 : FVec F S8x32 .f32 := Host.absf main_arg12
  let main_cst_22 : FVec F S_ .f32 := constant S_ .f32 0x7F800000#32
  let main_v60 : FVec F S8x32 .f32 := broadcastInDim S8x32 ![] bcast_S_S8x32 main_cst_22
  let main_v61 : IVec S8x32 1 := cmpf .olt main_v59 main_v60
  let main_c_23 : IVec S_ 1 := constantI S_ 1 1#1
  let main_v62 : IVec S_ 1 := (fun x v => Host.reduce IntOp.andi x v reducesTo_S8x32_S_d0_1 h_S_) main_v61 main_c_23
  let main_v63 : IVec S_ 1 := andi main_v58 main_v62
  let main_v64 : FVec F S8x32 .f32 := Host.absf main_arg13
  let main_cst_24 : FVec F S_ .f32 := constant S_ .f32 0x7F800000#32
  let main_v65 : FVec F S8x32 .f32 := broadcastInDim S8x32 ![] bcast_S_S8x32 main_cst_24
  let main_v66 : IVec S8x32 1 := cmpf .olt main_v64 main_v65
  let main_c_25 : IVec S_ 1 := constantI S_ 1 1#1
  let main_v67 : IVec S_ 1 := (fun x v => Host.reduce IntOp.andi x v reducesTo_S8x32_S_d0_1 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S128x256 .f32) (main_arg8 : FVec F S32x128 .f32) (main_arg9 : FVec F S32x128 .f32) (main_arg10 : FVec F S32x128 .f32) (main_arg11 : FVec F S32x128 .f32) (main_arg12 : FVec F S8x32 .f32) (main_arg13 : FVec F S8x32 .f32) (main_arg14 : FVec F S8x128 .f32) (main_arg15 : FVec F S8 .f32) (main_arg16 : FVec F S8x128 .f32) (main_arg17 : FVec F S8 .f32) (main_arg18 : FVec F S128x16 .f32) (main_arg19 : FVec F S128 .f32) (main_arg20 : FVec F S1x128 .f32) (main_arg21 : FVec F S1 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S32x128 .f32 := Host.absf main_arg8
  let main_cst_14 : FVec F S_ .f32 := constant S_ .f32 0x7F800000#32
  let main_v40 : FVec F S32x128 .f32 := broadcastInDim S32x128 ![] bcast_S_S32x128 main_cst_14
  let main_v41 : IVec S32x128 1 := cmpf .olt main_v39 main_v40
  let main_c_15 : IVec S_ 1 := constantI S_ 1 1#1
  let main_v42 : IVec S_ 1 := (fun x v => Host.reduce IntOp.andi x v reducesTo_S32x128_S_d0_1 h_S_) main_v41 main_c_15
  let main_v43 : IVec S_ 1 := andi main_v38 main_v42
  let main_v44 : FVec F S32x128 .f32 := Host.absf main_arg9
  let main_cst_16 : FVec F S_ .f32 := constant S_ .f32 0x7F800000#32
  let main_v45 : FVec F S32x128 .f32 := broadcastInDim S32x128 ![] bcast_S_S32x128 main_cst_16
  let main_v46 : IVec S32x128 1 := cmpf .olt main_v44 main_v45
  let main_c_17 : IVec S_ 1 := constantI S_ 1 1#1
  let main_v47 : IVec S_ 1 := (fun x v => Host.reduce IntOp.andi x v reducesTo_S32x128_S_d0_1 h_S_) main_v46 main_c_17
  let main_v48 : IVec S_ 1 := andi main_v43 main_v47
  let main_v49 : FVec F S32x128 .f32 := Host.absf main_arg10
  let main_cst_18 : FVec F S_ .f32 := constant S_ .f32 0x7F800000#32
  let main_v50 : FVec F S32x128 .f32 := broadcastInDim S32x128 ![] bcast_S_S32x128 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S128x168 .f32) (main_arg5 : FVec F S128 .f32) (main_arg6 : FVec F S128x256 .f32) (main_arg7 : FVec F S128x256 .f32) (main_arg8 : FVec F S32x128 .f32) (main_arg9 : FVec F S32x128 .f32) (main_arg10 : FVec F S32x128 .f32) (main_arg11 : FVec F S32x128 .f32) (main_arg12 : FVec F S8x32 .f32) (main_arg13 : FVec F S8x32 .f32) (main_arg14 : FVec F S8x128 .f32) (main_arg15 : FVec F S8 .f32) (main_arg16 : FVec F S8x128 .f32) (main_arg17 : FVec F S8 .f32) (main_arg18 : FVec F S128x16 .f32) (main_arg19 : FVec F S128 .f32) (main_arg20 : FVec F S1x128 .f32) (main_arg21 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x168 .f32 := Host.absf main_arg4
  let main_cst_6 : FVec F S_ .f32 := constant S_ .f32 0x7F800000#32
  let main_v20 : FVec F S128x168 .f32 := broadcastInDim S128x168 ![] bcast_S_S128x168 main_cst_6
  let main_v21 : IVec S128x168 1 := cmpf .olt main_v19 main_v20
  let main_c_7 : IVec S_ 1 := constantI S_ 1 1#1
  let main_v22 : IVec S_ 1 := (fun x v => Host.reduce IntOp.andi x v reducesTo_S128x168_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S500000x88 .f32) (main_arg1 : FVec F S500000x168 .f32) (main_arg2 : FVec F S128x88 .f32) (main_arg3 : FVec F S128 .f32) (main_arg4 : FVec F S128x168 .f32) (main_arg5 : FVec F S128 .f32) (main_arg6 : FVec F S128x256 .f32) (main_arg7 : FVec F S128x256 .f32) (main_arg8 : FVec F S32x128 .f32) (main_arg9 : FVec F S32x128 .f32) (main_arg10 : FVec F S32x128 .f32) (main_arg11 : FVec F S32x128 .f32) (main_arg12 : FVec F S8x32 .f32) (main_arg13 : FVec F S8x32 .f32) (main_arg14 : FVec F S8x128 .f32) (main_arg15 : FVec F S8 .f32) (main_arg16 : FVec F S8x128 .f32) (main_arg17 : FVec F S8 .f32) (main_arg18 : FVec F S128x16 .f32) (main_arg19 : FVec F S128 .f32) (main_arg20 : FVec F S1x128 .f32) (main_arg21 : FVec F S1 .f32) : IVec S_ 1 :=
  let main_v0 : FVec F S500000x88 .f32 := Host.absf main_arg0
  let main_cst : FVec F S_ .f32 := constant S_ .f32 0x7F800000#32
  let main_v1 : FVec F S500000x88 .f32 := broadcastInDim S500000x88 ![] bcast_S_S500000x88 main_cst
  let main_v2 : IVec S500000x88 1 := cmpf .olt main_v0 main_v1
  let main_c : IVec S_ 1 := constantI S_ 1 1#1
  let main_v3 : IVec S_ 1 := (fun x v => Host.reduce IntOp.andi x v reducesTo_S500000x88_S_d0_1 h_S_) main_v2 main_c
  let main_v4 : FVec F S500000x168 .f32 := Host.absf main_arg1
  let main_cst_0 : FVec F S_ .f32 := constant S_ .f32 0x7F800000#32
  let main_v5 : FVec F S500000x168 .f32 := broadcastInDim S500000x168 ![] bcast_S_S500000x168 main_cst_0
  let main_v6 : IVec S500000x168 1 := cmpf .olt main_v4 main_v5
  let main_c_1 : IVec S_ 1 := constantI S_ 1 1#1
  let main_v7 : IVec S_ 1 := (fun x v => Host.reduce IntOp.andi x v reducesTo_S500000x168_S_d0_1 h_S_) main_v6 main_c_1
  let main_v8 : IVec S_ 1 := andi main_v3 main_v7
  let main_v9 : FVec F S128x88 .f32 := Host.absf main_arg2
  let main_cst_2 : FVec F S_ .f32 := constant S_ .f32 0x7F800000#32
  let main_v10 : FVec F S128x88 .f32 := broadcastInDim S128x88 ![] bcast_S_S128x88 main_cst_2
  let main_v11 : IVec S128x88 1 := cmpf .olt main_v9 main_v10
  let main_c_3 : IVec S_ 1 := constantI S_ 1 1#1
  let main_v12 : IVec S_ 1 := (fun x v => Host.reduce IntOp.andi x v reducesTo_S128x88_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S500000x88 : Shape := ⟨2, ![500000, 88]⟩
abbrev S500000x168 : Shape := ⟨2, ![500000, 168]⟩
abbrev S128x88 : Shape := ⟨2, ![128, 88]⟩
abbrev S128 : Shape := ⟨1, ![128]⟩
abbrev S128x168 : Shape := ⟨2, ![128, 168]⟩
abbrev S128x256 : Shape := ⟨2, ![128, 256]⟩
abbrev S32x128 : Shape := ⟨2, ![32, 128]⟩
abbrev S8x32 : Shape := ⟨2, ![8, 32]⟩
abbrev S8x128 : Shape := ⟨2, ![8, 128]⟩
abbrev S8 : Shape := ⟨1, ![8]⟩
abbrev S128x16 : Shape := ⟨2, ![128, 16]⟩
abbrev S1x128 : Shape := ⟨2, ![1, 128]⟩
abbrev S1 : Shape := ⟨1, ![1]⟩
abbrev S88x128 : Shape := ⟨2, ![88, 128]⟩
abbrev S168x128 : Shape := ⟨2, ![168, 128]⟩
abbrev S256x128 : Shape := ⟨2, ![256, 128]⟩
abbrev S128x32 : Shape := ⟨2, ![128, 32]⟩
abbrev S32x8 : Shape := ⟨2, ![32, 8]⟩
abbrev S128x8 : Shape := ⟨2, ![128, 8]⟩
abbrev S16x128 : Shape := ⟨2, ![16, 128]⟩
abbrev S128x1 : Shape := ⟨2, ![128, 1]⟩
abbrev S1x8 : Shape := ⟨2, ![1, 8]⟩
abbrev S1x1 : Shape := ⟨2, ![1, 1]⟩
abbrev S500000x1 : Shape := ⟨2, ![500000, 1]⟩
abbrev S2000x88 : Shape := ⟨2, ![2000, 88]⟩
abbrev S2000x168 : Shape := ⟨2, ![2000, 168]⟩
abbrev S2000x1 : Shape := ⟨2, ![2000, 1]⟩
abbrev S2000 : Shape := ⟨1, ![2000]⟩
abbrev S2000x128 : Shape := ⟨2, ![2000, 128]⟩
abbrev S2000x256 : Shape := ⟨2, ![2000, 256]⟩
abbrev S2000x32 : Shape := ⟨2, ![2000, 32]⟩
abbrev S2000x8 : Shape := ⟨2, ![2000, 8]⟩
abbrev S2000x16 : Shape := ⟨2, ![2000, 16]⟩

abbrev nBuf : Space → Nat
  | .hbm => 57
  | .vmem => 26
  | .smem => 0
  | _ => 0

abbrev bufTy : (tb : Table) → Fin (tcTables nBuf tb) → BufTy
  | .hbm, ⟨0, _⟩ => ⟨S500000x88, .f32⟩
  | .hbm, ⟨1, _⟩ => ⟨S500000x168, .f32⟩
  | .hbm, ⟨2, _⟩ => ⟨S128x88, .f32⟩
  | .hbm, ⟨3, _⟩ => ⟨S128, .f32⟩
  | .hbm, ⟨4, _⟩ => ⟨S128x168, .f32⟩
  | .hbm, ⟨5, _⟩ => ⟨S128, .f32⟩
  | .hbm, ⟨6, _⟩ => ⟨S128x256, .f32⟩
  | .hbm, ⟨7, _⟩ => ⟨S128x256, .f32⟩
  | .hbm, ⟨8, _⟩ => ⟨S32x128, .f32⟩
  | .hbm, ⟨9, _⟩ => ⟨S32x128, .f32⟩
  | .hbm, ⟨10, _⟩ => ⟨S32x128, .f32⟩
  | .hbm, ⟨11, _⟩ => ⟨S32x128, .f32⟩
  | .hbm, ⟨12, _⟩ => ⟨S8x32, .f32⟩
  | .hbm, ⟨13, _⟩ => ⟨S8x32, .f32⟩
  | .hbm, ⟨14, _⟩ => ⟨S8x128, .f32⟩
  | .hbm, ⟨15, _⟩ => ⟨S8, .f32⟩
  | .hbm, ⟨16, _⟩ => ⟨S8x128, .f32⟩
  | .hbm, ⟨17, _⟩ => ⟨S8, .f32⟩
  | .hbm, ⟨18, _⟩ => ⟨S128x16, .f32⟩
  | .hbm, ⟨19, _⟩ => ⟨S128, .f32⟩
  | .hbm, ⟨20, _⟩ => ⟨S1x128, .f32⟩
  | .hbm, ⟨21, _⟩ => ⟨S1, .f32⟩
  | .hbm, ⟨22, _⟩ => ⟨S88x128, .f32⟩
  | .hbm, ⟨23, _⟩ => ⟨S88x128, .bf16⟩
  | .hbm, ⟨24, _⟩ => ⟨S168x128, .f32⟩
  | .hbm, ⟨25, _⟩ => ⟨S168x128, .bf16⟩
  | .hbm, ⟨26, _⟩ => ⟨S256x128, .f32⟩
  | .hbm, ⟨27, _⟩ => ⟨S256x128, .bf16⟩
  | .hbm, ⟨28, _⟩ => ⟨S256x128, .f32⟩
  | .hbm, ⟨29, _⟩ => ⟨S256x128, .bf16⟩
  | .hbm, ⟨30, _⟩ => ⟨S128x32, .f32⟩
  | .hbm, ⟨31, _⟩ => ⟨S128x32, .bf16⟩
  | .hbm, ⟨32, _⟩ => ⟨S128x32, .f32⟩
  | .hbm, ⟨33, _⟩ => ⟨S128x32, .bf16⟩
  | .hbm, ⟨34, _⟩ => ⟨S128x32, .f32⟩
  | .hbm, ⟨35, _⟩ => ⟨S128x32, .bf16⟩
  | .hbm, ⟨36, _⟩ => ⟨S128x32, .f32⟩
  | .hbm, ⟨37, _⟩ => ⟨S128x32, .bf16⟩
  | .hbm, ⟨38, _⟩ => ⟨S32x8, .f32⟩
  | .hbm, ⟨39, _⟩ => ⟨S32x8, .bf16⟩
  | .hbm, ⟨40, _⟩ => ⟨S32x8, .f32⟩
  | .hbm, ⟨41, _⟩ => ⟨S32x8, .bf16⟩
  | .hbm, ⟨42, _⟩ => ⟨S128x8, .f32⟩
  | .hbm, ⟨43, _⟩ => ⟨S128x8, .bf16⟩
  | .hbm, ⟨44, _⟩ => ⟨S128x8, .f32⟩
  | .hbm, ⟨45, _⟩ => ⟨S128x8, .bf16⟩
  | .hbm, ⟨46, _⟩ => ⟨S16x128, .f32⟩
  | .hbm, ⟨47, _⟩ => ⟨S16x128, .bf16⟩
  | .hbm, ⟨48, _⟩ => ⟨S128x1, .f32⟩
  | .hbm, ⟨49, _⟩ => ⟨S128x1, .bf16⟩
  | .hbm, ⟨50, _⟩ => ⟨S1x128, .f32⟩
  | .hbm, ⟨51, _⟩ => ⟨S1x128, .f32⟩
  | .hbm, ⟨52, _⟩ => ⟨S1x8, .f32⟩
  | .hbm, ⟨53, _⟩ => ⟨S1x8, .f32⟩
  | .hbm, ⟨54, _⟩ => ⟨S1x128, .f32⟩
  | .hbm, ⟨55, _⟩ => ⟨S1x1, .f32⟩
  | .hbm, ⟨56, _⟩ => ⟨S500000x1, .f32⟩
  | .local _ .vmem, ⟨0, _⟩ => ⟨S2000x88, .f32⟩
  | .local _ .vmem, ⟨1, _⟩ => ⟨S2000x88, .f32⟩
  | .local _ .vmem, ⟨2, _⟩ => ⟨S2000x168, .f32⟩
  | .local _ .vmem, ⟨3, _⟩ => ⟨S2000x168, .f32⟩
  | .local _ .vmem, ⟨4, _⟩ => ⟨S88x128, .bf16⟩
  | .local _ .vmem, ⟨5, _⟩ => ⟨S1x128, .f32⟩
  | .local _ .vmem, ⟨6, _⟩ => ⟨S168x128, .bf16⟩
  | .local _ .vmem, ⟨7, _⟩ => ⟨S1x128, .f32⟩
  | .local _ .vmem, ⟨8, _⟩ => ⟨S256x128, .bf16⟩
  | .local _ .vmem, ⟨9, _⟩ => ⟨S256x128, .bf16⟩
  | .local _ .vmem, ⟨10, _⟩ => ⟨S128x32, .bf16⟩
  | .local _ .vmem, ⟨11, _⟩ => ⟨S128x32, .bf16⟩
  | .local _ .vmem, ⟨12, _⟩ => ⟨S128x32, .bf16⟩
  | .local _ .vmem, ⟨13, _⟩ => ⟨S128x32, .bf16⟩
  | .local _ .vmem, ⟨14, _⟩ => ⟨S32x8, .bf16⟩
  | .local _ .vmem, ⟨15, _⟩ => ⟨S32x8, .bf16⟩
  | .local _ .vmem, ⟨16, _⟩ => ⟨S128x8, .bf16⟩
  | .local _ .vmem, ⟨17, _⟩ => ⟨S1x8, .f32⟩
  | .local _ .vmem, ⟨18, _⟩ => ⟨S128x8, .bf16⟩
  | .local _ .vmem, ⟨19, _⟩ => ⟨S1x8, .f32⟩
  | .local _ .vmem, ⟨20, _⟩ => ⟨S16x128, .bf16⟩
  | .local _ .vmem, ⟨21, _⟩ => ⟨S1x128, .f32⟩
  | .local _ .vmem, ⟨22, _⟩ => ⟨S128x1, .bf16⟩
  | .local _ .vmem, ⟨23, _⟩ => ⟨S1x1, .f32⟩
  | .local _ .vmem, ⟨24, _⟩ => ⟨S2000x1, .f32⟩
  | .local _ .vmem, ⟨25, _⟩ => ⟨S2000x1, .f32⟩
  | _, _ => ⟨S500000x88, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg22_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem22_1 : DmaSem sig := 25

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x88 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x168 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S88x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S168x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x32 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x32 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x8 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x8 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x8 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x8 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x1 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S2000x1 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

class Facts₀ : Prop where
  transposes_S128x88_S88x128_1_0 : S128x88.Transposes [1, 0] S88x128
  bitsLt_bf16_f32 : FTy.bits .bf16 < FTy.bits .f32
  transposes_S128x168_S168x128_1_0 : S128x168.Transposes [1, 0] S168x128
  transposes_S128x256_S256x128_1_0 : S128x256.Transposes [1, 0] S256x128
  transposes_S32x128_S128x32_1_0 : S32x128.Transposes [1, 0] S128x32
  transposes_S8x32_S32x8_1_0 : S8x32.Transposes [1, 0] S32x8
  transposes_S8x128_S128x8_1_0 : S8x128.Transposes [1, 0] S128x8
  transposes_S128x16_S16x128_1_0 : S128x16.Transposes [1, 0] S16x128
  transposes_S1x128_S128x1_1_0 : S1x128.Transposes [1, 0] S128x1
  shapeCasts_S128_S1x128 : S128.ShapeCasts S1x128
  shapeCasts_S8_S1x8 : S8.ShapeCasts S1x8
  shapeCasts_S1_S1x1 : S1.ShapeCasts S1x1
  inb_S2000x88_S2000x88_0_0 : ∀ a, (![0, 0] : Fin 2 → Nat) a + S2000x88.size a ≤ S2000x88.size a
  h_S2000x88 : 0 < S2000x88.numel
  inb_S2000x168_S2000x168_0_0 : ∀ a, (![0, 0] : Fin 2 → Nat) a + S2000x168.size a ≤ S2000x168.size a
  h_S2000x168 : 0 < S2000x168.numel
  reduces_S2000x88_S2000 : S2000x88.Reduces [1] S2000
  shapeCasts_S2000_S2000x1 : S2000.ShapeCasts S2000x1
  broadcasts_S2000x1_S2000x88 : S2000x1.Broadcasts S2000x88
  reduces_S2000x168_S2000 : S2000x168.Reduces [1] S2000
  broadcasts_S2000x1_S2000x168 : S2000x1.Broadcasts S2000x168
  inb_S88x128_S88x128_0_0 : ∀ a, (![0, 0] : Fin 2 → Nat) a + S88x128.size a ≤ S88x128.size a
  h_S88x128 : 0 < S88x128.numel
  shapeCasts_S88x128_S88x128 : S88x128.ShapeCasts S88x128
  inb_S168x128_S168x128_0_0 : ∀ a, (![0, 0] : Fin 2 → Nat) a + S168x128.size a ≤ S168x128.size a
  h_S168x128 : 0 < S168x128.numel
  shapeCasts_S168x128_S168x128 : S168x128.ShapeCasts S168x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  concatenates_S2000x128_S2000x128_S2000x256_d1 : Shape.Concatenates [S2000x128, S2000x128] S2000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S32x8_S32x8_0_0 : ∀ a, (![0, 0] : Fin 2 → Nat) a + S32x8.size a ≤ S32x8.size a
  h_S32x8 : 0 < S32x8.numel
  shapeCasts_S32x8_S32x8 : S32x8.ShapeCasts S32x8
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  concatenates_S2000x8_S2000x8_S2000x16_d1 : Shape.Concatenates [S2000x8, S2000x8] S2000x16 1
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S2000x88_S88x128_S2000x128_1_0_0_1_n_n_wf : DotDims.WF S2000x88 S88x128 S2000x128 [1] [0] [0] [1] [] []
  dot_S2000x168_S168x128_S2000x128_1_0_0_1_n_n_wf : DotDims.WF S2000x168 S168x128 S2000x128 [1] [0] [0] [1] [] []
  dot_S2000x256_S256x128_S2000x128_1_0_0_1_n_n_wf : DotDims.WF S2000x256 S256x128 S2000x128 [1] [0] [0] [1] [] []
  dot_S2000x128_S128x32_S2000x32_1_0_0_1_n_n_wf : DotDims.WF S2000x128 S128x32 S2000x32 [1] [0] [0] [1] [] []
  dot_S2000x32_S32x8_S2000x8_1_0_0_1_n_n_wf : DotDims.WF S2000x32 S32x8 S2000x8 [1] [0] [0] [1] [] []
  dot_S2000x128_S128x8_S2000x8_1_0_0_1_n_n_wf : DotDims.WF S2000x128 S128x8 S2000x8 [1] [0] [0] [1] [] []
  dot_S2000x16_S16x128_S2000x128_1_0_0_1_n_n_wf : DotDims.WF S2000x16 S16x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x88.size a ≤ S500000x88.size a
  hwx0_0 : ∀ i : grid0.Coords, EltTy.bits .f32 = 32 ∨ (Rect.block (s := S500000x88) S2000x88.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x168.size a ≤ S500000x168.size a
  hwx0_1 : ∀ i : grid0.Coords, EltTy.bits .f32 = 32 ∨ (Rect.block (s := S500000x168) S2000x168.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S88x128.size a ≤ S88x128.size a
  hwx0_2 : ∀ i : grid0.Coords, EltTy.bits .bf16 = 32 ∨ (Rect.block (s := S88x128) S88x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S168x128.size a ≤ S168x128.size a
  hwx0_4 : ∀ i : grid0.Coords, EltTy.bits .bf16 = 32 ∨ (Rect.block (s := S168x128) S168x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .bf16 = 32 ∨ (Rect.block (s := S256x128) S256x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x32.size a ≤ S128x32.size a
  hwx0_8 : ∀ i : grid0.Coords, EltTy.bits .bf16 = 32 ∨ (Rect.block (s := S128x32) S128x32.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x32.size a ≤ S128x32.size a
  hwx0_9 : ∀ i : grid0.Coords, EltTy.bits .bf16 = 32 ∨ (Rect.block (s := S128x32) S128x32.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x32.size a ≤ S128x32.size a
  hwx0_10 : ∀ i : grid0.Coords, EltTy.bits .bf16 = 32 ∨ (Rect.block (s := S128x32) S128x32.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x32.size a ≤ S128x32.size a
  hwx0_11 : ∀ i : grid0.Coords, EltTy.bits .bf16 = 32 ∨ (Rect.block (s := S128x32) S128x32.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x8.size a ≤ S32x8.size a
  hwx0_12 : ∀ i : grid0.Coords, EltTy.bits .bf16 = 32 ∨ (Rect.block (s := S32x8) S32x8.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32x8.size a ≤ S32x8.size a
  hwx0_13 : ∀ i : grid0.Coords, EltTy.bits .bf16 = 32 ∨ (Rect.block (s := S32x8) S32x8.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x8.size a ≤ S128x8.size a
  hwx0_14 : ∀ i : grid0.Coords, EltTy.bits .bf16 = 32 ∨ (Rect.block (s := S128x8) S128x8.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x8.size a ≤ S1x8.size a
  hwx0_15 : ∀ i : grid0.Coords, EltTy.bits .f32 = 32 ∨ (Rect.block (s := S1x8) S1x8.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x8.size a ≤ S128x8.size a
  hwx0_16 : ∀ i : grid0.Coords, EltTy.bits .bf16 = 32 ∨ (Rect.block (s := S128x8) S128x8.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x8.size a ≤ S1x8.size a
  hwx0_17 : ∀ i : grid0.Coords, EltTy.bits .f32 = 32 ∨ (Rect.block (s := S1x8) S1x8.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S16x128.size a ≤ S16x128.size a
  hwx0_18 : ∀ i : grid0.Coords, EltTy.bits .bf16 = 32 ∨ (Rect.block (s := S16x128) S16x128.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x128.size a ≤ S1x128.size a
  hwx0_19 : ∀ i : grid0.Coords, EltTy.bits .f32 = 32 ∨ (Rect.block (s := S1x128) S1x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x1.size a ≤ S128x1.size a
  hwx0_20 : ∀ i : grid0.Coords, EltTy.bits .bf16 = 32 ∨ (Rect.block (s := S128x1) S128x1.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x1.size a ≤ S1x1.size a
  hwx0_21 : ∀ i : grid0.Coords, EltTy.bits .f32 = 32 ∨ (Rect.block (s := S1x1) S1x1.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S2000x1.size a ≤ S500000x1.size a
  hwx0_22 : ∀ i : grid0.Coords, EltTy.bits .f32 = 32 ∨ (Rect.block (s := S500000x1) S2000x1.size (cc0_transform_22 i) (hinb0_22 i)).WholeWords (EltTy.packing .f32)

variable [Facts₀]

def dot_S2000x88_S88x128_S2000x128_1_0_0_1_n_n : DotDims S2000x88 S88x128 S2000x128 where
  lhsContracting := [1]
  rhsContracting := [0]
  lhsNonContracting := [0]
  rhsNonContracting := [1]
  lhsBatch := []
  rhsBatch := []
  wf := dot_S2000x88_S88x128_S2000x128_1_0_0_1_n_n_wf
def dot_S2000x168_S168x128_S2000x128_1_0_0_1_n_n : DotDims S2000x168 S168x128 S2000x128 where
  lhsContracting := [1]
  rhsContracting := [0]
  lhsNonContracting := [0]
  rhsNonContracting := [1]
  lhsBatch := []
  rhsBatch := []
  wf := dot_S2000x168_S168x128_S2000x128_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def dot_S2000x32_S32x8_S2000x8_1_0_0_1_n_n : DotDims S2000x32 S32x8 S2000x8 where
  lhsContracting := [1]
  rhsContracting := [0]
  lhsNonContracting := [0]
  rhsNonContracting := [1]
  lhsBatch := []
  rhsBatch := []
  wf := dot_S2000x32_S32x8_S2000x8_1_0_0_1_n_n_wf
def dot_S2000x128_S128x8_S2000x8_1_0_0_1_n_n : DotDims S2000x128 S128x8 S2000x8 where
  lhsContracting := [1]
  rhsContracting := [0]
  lhsNonContracting := [0]
  rhsNonContracting := [1]
  lhsBatch := []
  rhsBatch := []
  wf := dot_S2000x128_S128x8_S2000x8_1_0_0_1_n_n_wf
def dot_S2000x16_S16x128_S2000x128_1_0_0_1_n_n : DotDims S2000x16 S16x128 S2000x128 where
  lhsContracting := [1]
  rhsContracting := [0]
  lhsNonContracting := [0]
  rhsNonContracting := [1]
  lhsBatch := []
  rhsBatch := []
  wf := dot_S2000x16_S16x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x88.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x168.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S88x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S168x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S128x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S128x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S128x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S128x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S32x8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v19) S32x8.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v21) S128x8.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v30) S1x8.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v23) S128x8.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v31) S1x8.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v25) S16x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v32) S1x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v27) S128x1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v33) S1x1.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v34) S2000x1.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

class Facts : Prop extends Facts₀ where

variable [Facts]
-- ==== ReferenceIdeal.lean ====
abbrev S500000x88 : Shape := ⟨2, ![500000, 88]⟩
abbrev S500000x168 : Shape := ⟨2, ![500000, 168]⟩
abbrev S128x88 : Shape := ⟨2, ![128, 88]⟩
abbrev S128 : Shape := ⟨1, ![128]⟩
abbrev S128x168 : Shape := ⟨2, ![128, 168]⟩
abbrev S128x256 : Shape := ⟨2, ![128, 256]⟩
abbrev S32x128 : Shape := ⟨2, ![32, 128]⟩
abbrev S8x32 : Shape := ⟨2, ![8, 32]⟩
abbrev S8x128 : Shape := ⟨2, ![8, 128]⟩
abbrev S8 : Shape := ⟨1, ![8]⟩
abbrev S128x16 : Shape := ⟨2, ![128, 16]⟩
abbrev S1x128 : Shape := ⟨2, ![1, 128]⟩
abbrev S1 : Shape := ⟨1, ![1]⟩
abbrev S_ : Shape := ⟨0, ![]⟩
abbrev S500000 : Shape := ⟨1, ![500000]⟩
abbrev S500000x1 : Shape := ⟨2, ![500000, 1]⟩
abbrev S88x128 : Shape := ⟨2, ![88, 128]⟩
abbrev S500000x128 : Shape := ⟨2, ![500000, 128]⟩
abbrev S168x128 : Shape := ⟨2, ![168, 128]⟩
abbrev S500000x256 : Shape := ⟨2, ![500000, 256]⟩
abbrev S256x128 : Shape := ⟨2, ![256, 128]⟩
abbrev S128x32 : Shape := ⟨2, ![128, 32]⟩
abbrev S500000x32 : Shape := ⟨2, ![500000, 32]⟩
abbrev S32x8 : Shape := ⟨2, ![32, 8]⟩
abbrev S500000x8 : Shape := ⟨2, ![500000, 8]⟩
abbrev S128x8 : Shape := ⟨2, ![128, 8]⟩
abbrev S1x8 : Shape := ⟨2, ![1, 8]⟩
abbrev S500000x16 : Shape := ⟨2, ![500000, 16]⟩
abbrev S16x128 : Shape := ⟨2, ![16, 128]⟩
abbrev S128x1 : Shape := ⟨2, ![128, 1]⟩
abbrev S1x1 : Shape := ⟨2, ![1, 1]⟩

abbrev nBuf : Space → Nat
  | .hbm => 110
  | .vmem => 0
  | .smem => 0
  | _ => 0

abbrev bufTy : (tb : Table) → Fin (tcTables nBuf tb) → BufTy
  | .hbm, ⟨0, _⟩ => ⟨S500000x88, .f32⟩
  | .hbm, ⟨1, _⟩ => ⟨S500000x168, .f32⟩
  | .hbm, ⟨2, _⟩ => ⟨S128x88, .f32⟩
  | .hbm, ⟨3, _⟩ => ⟨S128, .f32⟩
  | .hbm, ⟨4, _⟩ => ⟨S128x168, .f32⟩
  | .hbm, ⟨5, _⟩ => ⟨S128, .f32⟩
  | .hbm, ⟨6, _⟩ => ⟨S128x256, .f32⟩
  | .hbm, ⟨7, _⟩ => ⟨S128x256, .f32⟩
  | .hbm, ⟨8, _⟩ => ⟨S32x128, .f32⟩
  | .hbm, ⟨9, _⟩ => ⟨S32x128, .f32⟩
  | .hbm, ⟨10, _⟩ => ⟨S32x128, .f32⟩
  | .hbm, ⟨11, _⟩ => ⟨S32x128, .f32⟩
  | .hbm, ⟨12, _⟩ => ⟨S8x32, .f32⟩
  | .hbm, ⟨13, _⟩ => ⟨S8x32, .f32⟩
  | .hbm, ⟨14, _⟩ => ⟨S8x128, .f32⟩
  | .hbm, ⟨15, _⟩ => ⟨S8, .f32⟩
  | .hbm, ⟨16, _⟩ => ⟨S8x128, .f32⟩
  | .hbm, ⟨17, _⟩ => ⟨S8, .f32⟩
  | .hbm, ⟨18, _⟩ => ⟨S128x16, .f32⟩
  | .hbm, ⟨19, _⟩ => ⟨S128, .f32⟩
  | .hbm, ⟨20, _⟩ => ⟨S1x128, .f32⟩
  | .hbm, ⟨21, _⟩ => ⟨S1, .f32⟩
  | .hbm, ⟨22, _⟩ => ⟨S500000x88, .f32⟩
  | .hbm, ⟨23, _⟩ => ⟨S_, .f32⟩
  | .hbm, ⟨24, _⟩ => ⟨S500000, .f32⟩
  | .hbm, ⟨25, _⟩ => ⟨S500000x1, .f32⟩
  | .hbm, ⟨26, _⟩ => ⟨S500000x1, .f32⟩
  | .hbm, ⟨27, _⟩ => ⟨S_, .f32⟩
  | .hbm, ⟨28, _⟩ => ⟨S500000x1, .f32⟩
  | .hbm, ⟨29, _⟩ => ⟨S500000x1, .f32⟩
  | .hbm, ⟨30, _⟩ => ⟨S500000x88, .f32⟩
  | .hbm, ⟨31, _⟩ => ⟨S500000x88, .f32⟩
  | .hbm, ⟨32, _⟩ => ⟨S500000x168, .f32⟩
  | .hbm, ⟨33, _⟩ => ⟨S_, .f32⟩
  | .hbm, ⟨34, _⟩ => ⟨S500000, .f32⟩
  | .hbm, ⟨35, _⟩ => ⟨S500000x1, .f32⟩
  | .hbm, ⟨36, _⟩ => ⟨S500000x1, .f32⟩
  | .hbm, ⟨37, _⟩ => ⟨S_, .f32⟩
  | .hbm, ⟨38, _⟩ => ⟨S500000x1, .f32⟩
  | .hbm, ⟨39, _⟩ => ⟨S500000x1, .f32⟩
  | .hbm, ⟨40, _⟩ => ⟨S500000x168, .f32⟩
  | .hbm, ⟨41, _⟩ => ⟨S500000x168, .f32⟩
  | .hbm, ⟨42, _⟩ => ⟨S88x128, .f32⟩
  | .hbm, ⟨43, _⟩ => ⟨S500000x128, .f32⟩
  | .hbm, ⟨44, _⟩ => ⟨S1x128, .f32⟩
  | .hbm, ⟨45, _⟩ => ⟨S500000x128, .f32⟩
  | .hbm, ⟨46, _⟩ => ⟨S500000x128, .f32⟩
  | .hbm, ⟨47, _⟩ => ⟨S168x128, .f32⟩
  | .hbm, ⟨48, _⟩ => ⟨S500000x128, .f32⟩
  | .hbm, ⟨49, _⟩ => ⟨S1x128, .f32⟩
  | .hbm, ⟨50, _⟩ => ⟨S500000x128, .f32⟩
  | .hbm, ⟨51, _⟩ => ⟨S500000x128, .f32⟩
  | .hbm, ⟨52, _⟩ => ⟨S500000x256, .f32⟩
  | .hbm, ⟨53, _⟩ => ⟨S256x128, .f32⟩
  | .hbm, ⟨54, _⟩ => ⟨S500000x128, .f32⟩
  | .hbm, ⟨55, _⟩ => ⟨S256x128, .f32⟩
  | .hbm, ⟨56, _⟩ => ⟨S500000x128, .f32⟩
  | .hbm, ⟨57, _⟩ => ⟨S500000x128, .f32⟩
  | .hbm, ⟨58, _⟩ => ⟨S_, .f32⟩
  | .hbm, ⟨59, _⟩ => ⟨S500000x128, .f32⟩
  | .hbm, ⟨60, _⟩ => ⟨S500000x128, .f32⟩
  | .hbm, ⟨61, _⟩ => ⟨S500000x128, .f32⟩
  | .hbm, ⟨62, _⟩ => ⟨S500000x128, .f32⟩
  | .hbm, ⟨63, _⟩ => ⟨S_, .f32⟩
  | .hbm, ⟨64, _⟩ => ⟨S500000x128, .f32⟩
  | .hbm, ⟨65, _⟩ => ⟨S500000x128, .f32⟩
  | .hbm, ⟨66, _⟩ => ⟨S500000x128, .f32⟩
  | .hbm, ⟨67, _⟩ => ⟨S128x32, .f32⟩
  | .hbm, ⟨68, _⟩ => ⟨S500000x32, .f32⟩
  | .hbm, ⟨69, _⟩ => ⟨S128x32, .f32⟩
  | .hbm, ⟨70, _⟩ => ⟨S500000x32, .f32⟩
  | .hbm, ⟨71, _⟩ => ⟨S500000x32, .f32⟩
  | .hbm, ⟨72, _⟩ => ⟨S_, .f32⟩
  | .hbm, ⟨73, _⟩ => ⟨S500000x32, .f32⟩
  | .hbm, ⟨74, _⟩ => ⟨S500000x32, .f32⟩
  | .hbm, ⟨75, _⟩ => ⟨S128x32, .f32⟩
  | .hbm, ⟨76, _⟩ => ⟨S500000x32, .f32⟩
  | .hbm, ⟨77, _⟩ => ⟨S128x32, .f32⟩
  | .hbm, ⟨78, _⟩ => ⟨S500000x32, .f32⟩
  | .hbm, ⟨79, _⟩ => ⟨S500000x32, .f32⟩
  | .hbm, ⟨80, _⟩ => ⟨S_, .f32⟩
  | .hbm, ⟨81, _⟩ => ⟨S500000x32, .f32⟩
  | .hbm, ⟨82, _⟩ => ⟨S500000x32, .f32⟩
  | .hbm, ⟨83, _⟩ => ⟨S32x8, .f32⟩
  | .hbm, ⟨84, _⟩ => ⟨S500000x8, .f32⟩
  | .hbm, ⟨85, _⟩ => ⟨S128x8, .f32⟩
  | .hbm, ⟨86, _⟩ => ⟨S500000x8, .f32⟩
  | .hbm, ⟨87, _⟩ => ⟨S500000x8, .f32⟩
  | .hbm, ⟨88, _⟩ => ⟨S1x8, .f32⟩
  | .hbm, ⟨89, _⟩ => ⟨S500000x8, .f32⟩
  | .hbm, ⟨90, _⟩ => ⟨S500000x8, .f32⟩
  | .hbm, ⟨91, _⟩ => ⟨S32x8, .f32⟩
  | .hbm, ⟨92, _⟩ => ⟨S500000x8, .f32⟩
  | .hbm, ⟨93, _⟩ => ⟨S128x8, .f32⟩
  | .hbm, ⟨94, _⟩ => ⟨S500000x8, .f32⟩
  | .hbm, ⟨95, _⟩ => ⟨S500000x8, .f32⟩
  | .hbm, ⟨96, _⟩ => ⟨S1x8, .f32⟩
  | .hbm, ⟨97, _⟩ => ⟨S500000x8, .f32⟩
  | .hbm, ⟨98, _⟩ => ⟨S500000x8, .f32⟩
  | .hbm, ⟨99, _⟩ => ⟨S500000x16, .f32⟩
  | .hbm, ⟨100, _⟩ => ⟨S16x128, .f32⟩
  | .hbm, ⟨101, _⟩ => ⟨S500000x128, .f32⟩
  | .hbm, ⟨102, _⟩ => ⟨S1x128, .f32⟩
  | .hbm, ⟨103, _⟩ => ⟨S500000x128, .f32⟩
  | .hbm, ⟨104, _⟩ => ⟨S500000x128, .f32⟩
  | .hbm, ⟨105, _⟩ => ⟨S128x1, .f32⟩
  | .hbm, ⟨106, _⟩ => ⟨S500000x1, .f32⟩
  | .hbm, ⟨107, _⟩ => ⟨S1x1, .f32⟩
  | .hbm, ⟨108, _⟩ => ⟨S500000x1, .f32⟩
  | .hbm, ⟨109, _⟩ => ⟨S500000x1, .f32⟩
  | _, _ => ⟨S500000x88, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_1 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_2 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_3 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_4 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_call0_cst : Ref sig .tc := ⟨.hbm, 72, rfl⟩
abbrev main_call0_v0 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_call1_cst : Ref sig .tc := ⟨.hbm, 80, rfl⟩
abbrev main_call1_v0 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩

abbrev nD : Nat := 1
abbrev τ : Topo := Topo.v7x

variable {F : FTy → Type} [FloatOps F]

class Facts₀ : Prop where
  reducesTo_S500000x88_S500000_d1 : S500000x88.ReducesTo [1] S500000
  h_S_ : 0 < S_.numel
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S500000x1_S500000x88_0_1 : S500000x1.BroadcastsInDim S500000x88 (![0, 1] : Fin 2 → Fin S500000x88.rank)
  reducesTo_S500000x168_S500000_d1 : S500000x168.ReducesTo [1] S500000
  bcast_S500000x1_S500000x168_0_1 : S500000x1.BroadcastsInDim S500000x168 (![0, 1] : Fin 2 → Fin S500000x168.rank)
  transposes_S128x88_S88x128_1_0 : S128x88.Transposes [1, 0] S88x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  transposes_S128x168_S168x128_1_0 : S128x168.Transposes [1, 0] S168x128
  concatenates_S500000x128_S500000x128_S500000x256_d1 : Shape.Concatenates [S500000x128, S500000x128] S500000x256 1
  transposes_S128x256_S256x128_1_0 : S128x256.Transposes [1, 0] S256x128
  bcast_S_S500000x128 : S_.BroadcastsInDim S500000x128 (![] : Fin 0 → Fin S500000x128.rank)
  transposes_S32x128_S128x32_1_0 : S32x128.Transposes [1, 0] S128x32
  bcast_S_S500000x32 : S_.BroadcastsInDim S500000x32 (![] : Fin 0 → Fin S500000x32.rank)
  transposes_S8x32_S32x8_1_0 : S8x32.Transposes [1, 0] S32x8
  transposes_S8x128_S128x8_1_0 : S8x128.Transposes [1, 0] S128x8
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  concatenates_S500000x8_S500000x8_S500000x16_d1 : Shape.Concatenates [S500000x8, S500000x8] S500000x16 1
  transposes_S128x16_S16x128_1_0 : S128x16.Transposes [1, 0] S16x128
  transposes_S1x128_S128x1_1_0 : S1x128.Transposes [1, 0] S128x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  dot_S500000x88_S88x128_S500000x128_1_0_0_1_n_n_wf : DotDims.WF S500000x88 S88x128 S500000x128 [1] [0] [0] [1] [] []
  dot_S500000x168_S168x128_S500000x128_1_0_0_1_n_n_wf : DotDims.WF S500000x168 S168x128 S500000x128 [1] [0] [0] [1] [] []
  dot_S500000x256_S256x128_S500000x128_1_0_0_1_n_n_wf : DotDims.WF S500000x256 S256x128 S500000x128 [1] [0] [0] [1] [] []
  dot_S500000x128_S128x32_S500000x32_1_0_0_1_n_n_wf : DotDims.WF S500000x128 S128x32 S500000x32 [1] [0] [0] [1] [] []
  dot_S500000x32_S32x8_S500000x8_1_0_0_1_n_n_wf : DotDims.WF S500000x32 S32x8 S500000x8 [1] [0] [0] [1] [] []
  dot_S500000x128_S128x8_S500000x8_1_0_0_1_n_n_wf : DotDims.WF S500000x128 S128x8 S500000x8 [1] [0] [0] [1] [] []
  dot_S500000x16_S16x128_S500000x128_1_0_0_1_n_n_wf : DotDims.WF S500000x16 S16x128 S500000x128 [1] [0] [0] [1] [] []
  dot_S500000x128_S128x1_S500000x1_1_0_0_1_n_n_wf : DotDims.WF S500000x128 S128x1 S500000x1 [1] [0] [0] [1] [] []

variable [Facts₀]

def dot_S500000x88_S88x128_S500000x128_1_0_0_1_n_n : DotDims S500000x88 S88x128 S500000x128 where
  lhsContracting := [1]
  rhsContracting := [0]
  lhsNonContracting := [0]
  rhsNonContracting := [1]
  lhsBatch := []
  rhsBatch := []
  wf := dot_S500000x88_S88x128_S500000x128_1_0_0_1_n_n_wf
def dot_S500000x168_S168x128_S500000x128_1_0_0_1_n_n : DotDims S500000x168 S168x128 S500000x128 where
  lhsContracting := [1]
  rhsContracting := [0]
  lhsNonContracting := [0]
  rhsNonContracting := [1]
  lhsBatch := []
  rhsBatch := []
  wf := dot_S500000x168_S168x128_S500000x128_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x32_S500000x32_1_0_0_1_n_n : DotDims S500000x128 S128x32 S500000x32 where
  lhsContracting := [1]
  rhsContracting := [0]
  lhsNonContracting := [0]
  rhsNonContracting := [1]
  lhsBatch := []
  rhsBatch := []
  wf := dot_S500000x128_S128x32_S500000x32_1_0_0_1_n_n_wf
def dot_S500000x32_S32x8_S500000x8_1_0_0_1_n_n : DotDims S500000x32 S32x8 S500000x8 where
  lhsContracting := [1]
  rhsContracting := [0]
  lhsNonContracting := [0]
  rhsNonContracting := [1]
  lhsBatch := []
  rhsBatch := []
  wf := dot_S500000x32_S32x8_S500000x8_1_0_0_1_n_n_wf
def dot_S500000x128_S128x8_S500000x8_1_0_0_1_n_n : DotDims S500000x128 S128x8 S500000x8 where
  lhsContracting := [1]
  rhsContracting := [0]
  lhsNonContracting := [0]
  rhsNonContracting := [1]
  lhsBatch := []
  rhsBatch := []
  wf := dot_S500000x128_S128x8_S500000x8_1_0_0_1_n_n_wf
def dot_S500000x16_S16x128_S500000x128_1_0_0_1_n_n : DotDims S500000x16 S16x128 S500000x128 where
  lhsContracting := [1]
  rhsContracting := [0]
  lhsNonContracting := [0]
  rhsNonContracting := [1]
  lhsBatch := []
  rhsBatch := []
  wf := dot_S500000x16_S16x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.RowSpec.lean ====
/-
  The specification shared by both programs, row by row.

  Every row `b` of the result depends only on row `b` of the two feature arrays and on the weights.  With
  `x₁ = f1[b, :]` (88 entries) and `x₂ = f2[b, :]` (168 entries), over the extended reals:

    n(x)      = x / max(√(Σₖ xₖ²), ε)                          (ε the binary32 value nearest 1e-12)
    aud       = n(x₁) · E₁ᵀ + b₁ ,  vis = n(x₂) · E₂ᵀ + b₂     (128 entries each)
    av        = aud ‖ vis                                       (256 entries)
    a_t       = av · Aₐᵀ ,  v_t = av · Aᵥᵀ
    aatt      = tanh(aud ⊙ a_t / 16) ,  vatt = tanh(vis ⊙ v_t / 16)
    h_a       = max(aatt · W_caᵀ + aud · W_aᵀ, 0) ,  h_v = max(vatt · W_cvᵀ + vis · W_vᵀ, 0)   (32 entries)
    att_a     = h_a · W_haᵀ + aud · E₃ᵀ + b₃ ,  att_v = h_v · W_hvᵀ + vis · E₄ᵀ + b₄           (8 entries)
    hid       = (att_a ‖ att_v) · R₁ᵀ + c₁                      (128 entries)
    out       = hid · R₂ᵀ + c₂                                  (1 entry)

  A weight matrix is taken here as a function `W q k` of the OUTPUT coordinate `q` and the contracted coordinate
  `k` (the layout of a linear layer's weight), a bias as a function of the output coordinate; `x · Wᵀ` at `q` is
  `Σₖ xₖ · W q k`.  Each program reads its arrays into these functions its own way (one stages transposed copies,
  the other contracts against a transpose); the arithmetic on them is the same.
-/
import Idealize.ShloMosaic.PureOps.Ideal
import Idealize.ShloMosaic.Lib.ValueIdx

noncomputable section

namespace Cert.RowSpec

open Idealize.ShloMosaic Idealize.ShloMosaic.ValueIdx
open scoped BigOperators

/-- Row `r` of a two-axis array. -/
def rowOf {R n : ℕ} (X : (⟨2, ![R, n]⟩ : Shape).Idx → EReal) (r : Fin R) : Fin n → EReal := fun k => X (ix2 r k)

/-- A two-axis weight array `[o, n]` as a function of the output and the contracted coordinate. -/
def mat {o n : ℕ} (W : (⟨2, ![o, n]⟩ : Shape).Idx → EReal) : Fin o → Fin n → EReal := fun q k => W (ix2 q k)

/-- A one-axis bias array as a function of its coordinate. -/
def vec {o : ℕ} (b : (⟨1, ![o]⟩ : Shape).Idx → EReal) : Fin o → EReal := fun q => b (ix1 q)

/-- A weight array stored TRANSPOSED, `[n, o]`, as the same function of the output and the contracted coordinate. -/
def matT {n o : ℕ} (W : (⟨2, ![n, o]⟩ : Shape).Idx → EReal) : Fin o → Fin n → EReal := fun q k => W (ix2 k q)

/-- A bias stored as one row `[1, o]`, as a function of its coordinate. -/
def vecR {o : ℕ} (b : (⟨2, ![1, o]⟩ : Shape).Idx → EReal) : Fin o → EReal := fun q => b (ix2 (0 : Fin 1) q)

/-- The floor under the norm: the binary32 value nearest 1e-12. -/
def eps : EReal := Ideal.ofBits .f32 0x2B8CBCCC#32

/-- The divisor of the gate's argument, the binary32 value 16. -/
def sixteen : EReal := Ideal.ofBits .f32 0x41800000#32

/-- The rectifier's threshold, the binary32 zero word. -/
def zero32 : EReal := Ideal.ofBits .f32 0x00000000#32

/-- A row divided by its Euclidean norm, the norm floored at `eps`. -/
def l2n {n : ℕ} (x : Fin n → EReal) : Fin n → EReal :=
  fun j => Ideal.div (x j) (max (Ideal.sqrt (∑ k, x k * x k)) eps)

/-- A row times the transpose of a weight matrix: `Σₖ xₖ · W q k`. -/
def lin {o n : ℕ} (W : Fin o → Fin n → EReal) (x : Fin n → EReal) : Fin o → EReal :=
  fun q => ∑ k, x k * W q k

/-- Two rows side by side. -/
def cat {a b c : ℕ} (hc : c = a + b) (x : Fin a → EReal) (y : Fin b → EReal) : Fin c → EReal :=
  fun k => if h : k.val < a then x ⟨k.val, h⟩ else y ⟨k.val - a, by omega⟩

/-- The gate: `tanh(a ⊙ t / 16)`. -/
def gate {n : ℕ} (a t : Fin n → EReal) : Fin n → EReal :=
  fun q => Ideal.tanh (Ideal.div (a q * t q) sixteen)

/-- The rectifier. -/
def relu {n : ℕ} (x : Fin n → EReal) : Fin n → EReal := fun q => max (x q) zero32

section Stages

variable (e1w : Fin 128 → Fin 88 → EReal) (e1b : Fin 128 → EReal)
  (e2w : Fin 128 → Fin 168 → EReal) (e2b : Fin 128 → EReal)
  (affa affv : Fin 128 → Fin 256 → EReal)
  (wa wv wca wcv : Fin 32 → Fin 128 → EReal)
  (wha whv : Fin 8 → Fin 32 → EReal)
  (e3w : Fin 8 → Fin 128 → EReal) (e3b : Fin 8 → EReal)
  (e4w : Fin 8 → Fin 128 → EReal) (e4b : Fin 8 → EReal)
  (r1w : Fin 128 → Fin 16 → EReal) (r1b : Fin 128 → EReal)
  (r2w : Fin 1 → Fin 128 → EReal) (r2b : Fin 1 → EReal)
  (x1 : Fin 88 → EReal) (x2 : Fin 168 → EReal)

/-- The first embedding of a normalised row: `n(x) · Eᵀ + b`. -/
def emb {n : ℕ} (W : Fin 128 → Fin n → EReal) (b : Fin 128 → EReal) (x : Fin n → EReal) : Fin 128 → EReal :=
  fun q => lin W (l2n x) q + b q

/-- The two embeddings side by side. -/
def av : Fin 256 → EReal := cat (a := 128) (b := 128) rfl (emb e1w e1b x1) (emb e2w e2b x2)

/-- The gated branch of one modality: `tanh(e ⊙ (av · Aᵀ) / 16)`. -/
def att (A : Fin 128 → Fin 256 → EReal) (e : Fin 128 → EReal) : Fin 128 → EReal :=
  gate e (lin A (av e1w e1b e2w e2b x1 x2))

/-- The hidden layer of one modality: `max(g · W_cᵀ + e · Wᵀ, 0)`. -/
def hidden (Wc W : Fin 32 → Fin 128 → EReal) (g e : Fin 128 → EReal) : Fin 32 → EReal :=
  relu fun q => lin Wc g q + lin W e q

/-- The attention logits of one modality: `h · W_hᵀ + e · Eᵀ + b`. -/
def logits (Wh : Fin 8 → Fin 32 → EReal) (E : Fin 8 → Fin 128 → EReal) (b : Fin 8 → EReal)
    (h : Fin 32 → EReal) (e : Fin 128 → EReal) : Fin 8 → EReal :=
  fun q => lin Wh h q + lin E e q + b q

/-- The audio modality's logits. -/
def attA : Fin 8 → EReal :=
  logits wha e3w e3b
    (hidden wca wa (att e1w e1b e2w e2b x1 x2 affa (emb e1w e1b x1)) (emb e1w e1b x1)) (emb e1w e1b x1)

/-- The visual modality's logits. -/
def attV : Fin 8 → EReal :=
  logits whv e4w e4b
    (hidden wcv wv (att e1w e1b e2w e2b x1 x2 affv (emb e2w e2b x2)) (emb e2w e2b x2)) (emb e2w e2b x2)

/-- The regressor's hidden layer over both modalities' logits. -/
def hid : Fin 128 → EReal :=
  fun q => lin r1w (cat (a := 8) (b := 8) (c := 16) rfl
      (attA e1w e1b e2w e2b affa wa wca wha e3w e3b x1 x2)
      (attV e1w e1b e2w e2b affv wv wcv whv e4w e4b x1 x2)) q + r1b q

/-- One row's result. -/
def out : EReal :=
  lin r2w (hid e1w e1b e2w e2b affa affv wa wv wca wcv wha whv e3w e3b e4w e4b r1w r1b x1 x2) 0 + r2b 0

end Stages

/-- The whole result array as ONE function of the argument arrays: row `b`'s entry is `out` of row `b` of the two
    feature arrays, the weights read in their stored layout. -/
def G (f1 : (⟨2, ![500000, 88]⟩ : Shape).Idx → EReal) (f2 : (⟨2, ![500000, 168]⟩ : Shape).Idx → EReal)
    (e1_w : (⟨2, ![128, 88]⟩ : Shape).Idx → EReal) (e1_b : (⟨1, ![128]⟩ : Shape).Idx → EReal)
    (e2_w : (⟨2, ![128, 168]⟩ : Shape).Idx → EReal) (e2_b : (⟨1, ![128]⟩ : Shape).Idx → EReal)
    (aff_a aff_v : (⟨2, ![128, 256]⟩ : Shape).Idx → EReal)
    (w_a w_v w_ca w_cv : (⟨2, ![32, 128]⟩ : Shape).Idx → EReal)
    (w_ha w_hv : (⟨2, ![8, 32]⟩ : Shape).Idx → EReal)
    (e3_w : (⟨2, ![8, 128]⟩ : Shape).Idx → EReal) (e3_b : (⟨1, ![8]⟩ : Shape).Idx → EReal)
    (e4_w : (⟨2, ![8, 128]⟩ : Shape).Idx → EReal) (e4_b : (⟨1, ![8]⟩ : Shape).Idx → EReal)
    (r1_w : (⟨2, ![128, 16]⟩ : Shape).Idx → EReal) (r1_b : (⟨1, ![128]⟩ : Shape).Idx → EReal)
    (r2_w : (⟨2, ![1, 128]⟩ : Shape).Idx → EReal) (r2_b : (⟨1, ![1]⟩ : Shape).Idx → EReal) :
    (⟨2, ![500000, 1]⟩ : Shape).Idx → EReal :=
  fun i => out (mat e1_w) (vec e1_b) (mat e2_w) (vec e2_b) (mat aff_a) (mat aff_v) (mat w_a) (mat w_v) (mat w_ca) (mat w_cv)
    (mat w_ha) (mat w_hv) (mat e3_w) (vec e3_b) (mat e4_w) (vec e4_b) (mat r1_w) (vec r1_b) (mat r2_w) (vec r2_b)
    (rowOf f1 ⟨(i 0).val, (i 0).isLt⟩) (rowOf f2 ⟨(i 0).val, (i 0).isLt⟩)

end Cert.RowSpec

end
-- ==== Proof.LibRowOps.lean ====
/-
  Two-axis operations read at a row and a column.

  General facts about arrays with two axes, written over indices `ix2 r c` with literal-typed coordinates, at the
  extended reals where arithmetic is involved:
  * a plain matrix product `[M, K] × [K, N]` into a zero accumulator is, at `(r, c)`, the sum over `k` of the left
    operand at `(r, k)` times the right at `(k, c)`;
  * a sum over the second axis of an `[R, n]` array is, at `r`, the sum over `k` of the array at `(r, k)`;
  * a one-axis array `[a]` cast to a column `[a, 1]` reads its entry `r`; a column `[a, 1]` broadcast to `[a, b]`
    reads the column's entry in the same row;
  * two arrays joined along the second axis read the first where the column falls inside it and the second, the first's
    width less, elsewhere.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx
open scoped BigOperators

/-! ## A plain matrix product -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (M K N : ℕ) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (M K N : ℕ) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index of a plain product, re-indexed by the one contracted coordinate. -/
theorem plain_sum (M K N : ℕ) (a : (⟨2, ![M, K]⟩ : Shape).Idx → EReal) (b : (⟨2, ![K, N]⟩ : Shape).Idx → EReal)
    (r : Fin M) (c : Fin N) :
    ∑ k : (DotDims.plain M K N).contr.Idx,
        a ((DotDims.plain M K N).lhsIdx (ix2 r c) k) * b ((DotDims.plain M K N).rhsIdx (ix2 r c) k)
      = ∑ k : Fin K, a (ix2 r k) * b (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun ax => Fin.ext (by
      match ax with
      | ⟨0, _⟩ => exact plain_lhs0 M K N _ _
      | ⟨1, _⟩ => exact (plain_lhs1 M K N _ _).trans hk)
  have er : (DotDims.plain M K N).rhsIdx (ix2 r c) ((contrEquiv1 (DotDims.plain M K N) K rfl rfl).symm k) = ix2 k c :=
    funext fun ax => Fin.ext (by
      match ax with
      | ⟨0, _⟩ => exact (plain_rhs0 M K N _ _).trans hk
      | ⟨1, _⟩ => exact plain_rhs1 M K N _ _)
  rw [el, er]

/-- A matrix product with plain dimension numbers into the zero accumulator, at `(r, c)`: `Σₖ a (r, k) · b (k, c)`.
    The dimension record may be any whose data are the plain ones (`hD`, by `rfl` for a printed record). -/
theorem matmul_plain_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (r : Fin M) (c : Fin N) :
    matmul D prec a b (constant ⟨2, ![M, N]⟩ .f32 0x00000000#32) (ix2 r c) = ∑ k : Fin K, a (ix2 r k) * b (ix2 k c) := by
  subst hD
  exact (Ideal.matmul_constant_zero_apply (DotDims.plain M K N) prec a b (ix2 r c)).trans (plain_sum M K N a b r c)

/-! ## A sum along the second axis -/

/-- A float sum over axis 1 of an `[R, n]` array from the zero word, at `r`: `Σₖ x (r, k)`. -/
theorem multiReduction_add_rows {R n : ℕ} {φ : FTy} (x : FVec Ideal ⟨2, ![R, n]⟩ φ) (acc : BitVec φ.bits)
    (h : (⟨2, ![R, n]⟩ : Shape).Reduces [1] ⟨1, ![R]⟩) (hφ : FKind.Formats φ) (hacc : acc = FKind.add.neutral φ hφ) (r : Fin R) :
    multiReduction .add [1] ⟨1, ![R]⟩ x acc h hφ hacc (ix1 r) = ∑ k : Fin n, x (ix2 r k) := by
  refine (Ideal.multiReduction_add_single x acc h hφ hacc (ix1 r)).trans ?_
  refine Finset.sum_congr rfl fun k _ => congrArg x (funext fun ax => Fin.ext ?_)
  match ax with
  | ⟨0, _⟩ => rfl
  | ⟨1, _⟩ => rfl

/-! ## Columns -/

variable {α : Type}

/-- An `[a]` array cast to a column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry in row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## Two arrays side by side -/

/-- Two arrays `[R, a]` and `[R, b]` joined along axis 1 into `[R, c]`, at `(r, k)`: the first at `(r, k)` when `k < a`,
    else the second at `(r, k - a)`. -/
theorem concatenate_cols_apply {R a b c : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, c]⟩ 1) (hc : c = a + b) (r : Fin R) (k : Fin c) :
    concatenate ⟨2, ![R, c]⟩ 1 [⟨⟨2, ![R, a]⟩, x₁⟩, ⟨⟨2, ![R, b]⟩, x₂⟩] h (ix2 r k)
      = if hk : k.val < a then x₁ (ix2 r ⟨k.val, hk⟩) else x₂ (ix2 r ⟨k.val - a, by omega⟩) := by
  split
  · next hk =>
    refine concatenate_pair_apply_left 1 x₁ x₂ h (ix2 r k) rfl (ix2 r ⟨k.val, hk⟩) fun ax => ?_
    match ax with
    | ⟨0, _⟩ => rfl
    | ⟨1, _⟩ => rfl
  · next hk =>
    refine concatenate_pair_apply_right 1 x₁ x₂ h (ix2 r k) rfl rfl (ix2 r ⟨k.val - a, by omega⟩) (fun ax hne => ?_) ?_
    · match ax with
      | ⟨0, _⟩ => rfl
      | ⟨1, _⟩ => exact absurd rfl hne
    · show k.val - a + a = k.val
      omega

end Cert.RowOps

end
-- ==== Proof.KernelRows.lean ====
/-
  The kernel body's arithmetic read row by row: the block it stores, at row `r`, is the row function `RowSpec.out`
  of row `r` of the two staged feature blocks, each weight block read transposed (the program stages transposed copies)
  and each bias block read as its one row.
-/
import proofs.«118040_j58291296141385_1_alg».proof.Proof.Gen.KernelIdeal.Skeleton
import proofs.«118040_j58291296141385_1_alg».proof.Proof.RowSpec
import proofs.«118040_j58291296141385_1_alg».proof.Proof.LibRowOps

noncomputable section

namespace Cert.KernelRows

open Idealize.ShloMosaic Idealize.ShloMosaic.ValueIdx Cert.KernelIdeal Cert.KernelIdeal.Gen Cert.RowSpec
open scoped BigOperators

/-! ## Operations of the body read at a row -/

/-- A block whose row `r` is `x`, times a weight block stored transposed `[K, N]` (cast to its own shape), into the
    zero accumulator, at `(r, c)`: `Σₖ xₖ · W c k` for `W` the weight read back as `[N, K]`. -/
theorem linT_apply {M K N : ℕ} {φ₁ φ₂ : FTy} (D : DotDims ⟨2, ![M, K]⟩ ⟨2, ![K, N]⟩ ⟨2, ![M, N]⟩)
    (hD : D = DotDims.plain M K N) (a : FVec Ideal ⟨2, ![M, K]⟩ φ₁) (w : FVec Ideal ⟨2, ![K, N]⟩ φ₂)
    (hw : (⟨2, ![K, N]⟩ : Shape).ShapeCasts ⟨2, ![K, N]⟩) (r : Fin M) (c : Fin N) (x : Fin K → EReal)
    (hx : ∀ k, a (ix2 r k) = x k) :
    matmul D none a (shapeCast ⟨2, ![K, N]⟩ w hw) (constant ⟨2, ![M, N]⟩ .f32 0x00000000#32) (ix2 r c)
      = lin (matT w) x c := by
  rw [shapeCast_self]
  refine (Cert.RowOps.matmul_plain_apply D hD none a w r c).trans ?_
  exact Finset.sum_congr rfl fun k _ => by rw [hx k]; rfl

/-- A bias stored as one row `[1, b]` (cast to its own shape) and broadcast down `a` rows, at `(r, q)`. -/
theorem biasRow_apply {a b : ℕ} (v : (⟨2, ![1, b]⟩ : Shape).Idx → EReal)
    (hc : (⟨2, ![1, b]⟩ : Shape).ShapeCasts ⟨2, ![1, b]⟩) (hb : (⟨2, ![1, b]⟩ : Shape).Broadcasts ⟨2, ![a, b]⟩)
    (r : Fin a) (q : Fin b) :
    broadcastTo ⟨2, ![a, b]⟩ (shapeCast ⟨2, ![1, b]⟩ v hc) hb (ix2 r q) = vecR v q := by
  rw [shapeCast_self]
  exact broadcastTo_1b_ab_apply v hb r q

/-- A block divided, row by row, by the root of the row's sum of squares floored at `eps`, at `(r, j)`. -/
theorem l2n_apply {R n : ℕ} (x : FVec Ideal ⟨2, ![R, n]⟩ .f32)
    (h : (⟨2, ![R, n]⟩ : Shape).Reduces [1] ⟨1, ![R]⟩) (hφ : FKind.Formats FTy.f32)
    (hacc : (0x00000000#32 : BitVec FTy.f32.bits) = FKind.add.neutral .f32 hφ)
    (hc : (⟨1, ![R]⟩ : Shape).ShapeCasts ⟨2, ![R, 1]⟩) (hb : (⟨2, ![R, 1]⟩ : Shape).Broadcasts ⟨2, ![R, n]⟩)
    (r : Fin R) (j : Fin n) :
    divf x (broadcastTo ⟨2, ![R, n]⟩ (maximumf (sqrt (shapeCast ⟨2, ![R, 1]⟩
        (multiReduction .add [1] ⟨1, ![R]⟩ (mulf x x) 0x00000000#32 h hφ hacc) hc))
        (broadcast ⟨2, ![R, 1]⟩ (Scalar.ofBits .f32 0x2B8CBCCC#32))) hb) (ix2 r j)
      = l2n (rowOf x r) j := by
  rw [divf_apply, Cert.RowOps.broadcastTo_a1_ab_apply _ hb r j, maximumf_apply]
  show Ideal.div (x (ix2 r j)) (max (Ideal.sqrt (shapeCast ⟨2, ![R, 1]⟩ _ hc (ix2 r (0 : Fin 1)))) eps) = _
  rw [Cert.RowOps.shapeCast_a_a1_apply _ hc r 0, Cert.RowOps.multiReduction_add_rows (mulf x x) _ h hφ hacc r]
  rfl

/-- The first embedding's arithmetic over blocks: the normalised block times the transposed weight block plus the bias
    row, at `(r, q)`. -/
theorem embStage_apply {n : ℕ} (v : FVec Ideal ⟨2, ![2000, n]⟩ .f32) (w : FVec Ideal ⟨2, ![n, 128]⟩ .bf16)
    (b : FVec Ideal ⟨2, ![1, 128]⟩ .f32)
    (D : DotDims ⟨2, ![2000, n]⟩ ⟨2, ![n, 128]⟩ ⟨2, ![2000, 128]⟩) (hD : D = DotDims.plain 2000 n 128)
    (h : (⟨2, ![2000, n]⟩ : Shape).Reduces [1] ⟨1, ![2000]⟩) (hφ : FKind.Formats FTy.f32)
    (hacc : (0x00000000#32 : BitVec FTy.f32.bits) = FKind.add.neutral .f32 hφ)
    (hc : (⟨1, ![2000]⟩ : Shape).ShapeCasts ⟨2, ![2000, 1]⟩)
    (hb : (⟨2, ![2000, 1]⟩ : Shape).Broadcasts ⟨2, ![2000, n]⟩)
    (hlt : FTy.bits .bf16 < FTy.bits .f32)
    (hw : (⟨2, ![n, 128]⟩ : Shape).ShapeCasts ⟨2, ![n, 128]⟩)
    (hbc : (⟨2, ![1, 128]⟩ : Shape).ShapeCasts ⟨2, ![1, 128]⟩)
    (hbb : (⟨2, ![1, 128]⟩ : Shape).Broadcasts ⟨2, ![2000, 128]⟩)
    (r : Fin 2000) (q : Fin 128) :
    addf (matmul D none (truncf .bf16 (divf v (broadcastTo ⟨2, ![2000, n]⟩ (maximumf (sqrt (shapeCast ⟨2, ![2000, 1]⟩
        (multiReduction .add [1] ⟨1, ![2000]⟩ (mulf v v) 0x00000000#32 h hφ hacc) hc))
        (broadcast ⟨2, ![2000, 1]⟩ (Scalar.ofBits .f32 0x2B8CBCCC#32))) hb)) hlt) (shapeCast ⟨2, ![n, 128]⟩ w hw)
        (constant ⟨2, ![2000, 128]⟩ .f32 0x00000000#32))
      (broadcastTo ⟨2, ![2000, 128]⟩ (shapeCast ⟨2, ![1, 128]⟩ b hbc) hbb) (ix2 r q)
      = emb (matT w) (vecR b) (rowOf v r) q := by
  rw [addf_apply, biasRow_apply b hbc hbb r q]
  refine congrArg (· + vecR b q) ?_
  exact linT_apply D hD _ w hw r q (l2n (rowOf v r)) fun k => l2n_apply v h hφ hacc hc hb r k

/-- The first modality's embedding at `(r, q)`. -/
theorem pay1_apply (v0 : Vec Ideal S2000x88 .f32) (v18 : Vec Ideal S88x128 .bf16) (v24 : Vec Ideal S1x128 .f32)
    (r : Fin 2000) (q : Fin 128) :
    k0_pay1 v0 v18 v24 (ix2 r q) = emb (matT v18) (vecR v24) (rowOf v0 r) q :=
  embStage_apply v0 v18 v24 dot_S2000x88_S88x128_S2000x128_1_0_0_1_n_n rfl _ _ _ _ _ _ _ _ _ r q

/-- The second modality's embedding at `(r, q)`. -/
theorem pay2_apply (v1 : Vec Ideal S2000x168 .f32) (v20 : Vec Ideal S168x128 .bf16) (v30 : Vec Ideal S1x128 .f32)
    (r : Fin 2000) (q : Fin 128) :
    k0_pay2 v1 v20 v30 (ix2 r q) = emb (matT v20) (vecR v30) (rowOf v1 r) q :=
  embStage_apply v1 v20 v30 dot_S2000x168_S168x128_S2000x128_1_0_0_1_n_n rfl _ _ _ _ _ _ _ _ _ r q

/-- Two blocks side by side whose rows `r` are `f` and `g`, at `(r, k)`: the two rows side by side. -/
theorem catStage_apply {R a b c : ℕ} (x₁ : (⟨2, ![R, a]⟩ : Shape).Idx → EReal) (x₂ : (⟨2, ![R, b]⟩ : Shape).Idx → EReal)
    (h : Shape.Concatenates [⟨2, ![R, a]⟩, ⟨2, ![R, b]⟩] ⟨2, ![R, c]⟩ 1) (hc : c = a + b) (r : Fin R) (k : Fin c)
    (f : Fin a → EReal) (g : Fin b → EReal) (hf : ∀ q, x₁ (ix2 r q) = f q) (hg : ∀ q, x₂ (ix2 r q) = g q) :
    concatenate ⟨2, ![R, c]⟩ 1 [⟨⟨2, ![R, a]⟩, x₁⟩, ⟨⟨2, ![R, b]⟩, x₂⟩] h (ix2 r k) = cat hc f g k := by
  rw [Cert.RowOps.concatenate_cols_apply x₁ x₂ h hc r k]
  unfold cat
  by_cases hk : k.val < a
  · rw [dif_pos hk, dif_pos hk]; exact hf _
  · rw [dif_neg hk, dif_neg hk]; exact hg _

/-- The two embeddings side by side at `(r, k)`. -/
theorem pay3_apply (v0 : Vec Ideal S2000x88 .f32) (v1 : Vec Ideal S2000x168 .f32) (v18 : Vec Ideal S88x128 .bf16)
    (v20 : Vec Ideal S168x128 .bf16) (v24 : Vec Ideal S1x128 .f32) (v30 : Vec Ideal S1x128 .f32)
    (r : Fin 2000) (k : Fin 256) :
    k0_pay3 v0 v1 v18 v20 v24 v30 (ix2 r k)
      = av (matT v18) (vecR v24) (matT v20) (vecR v30) (rowOf v0 r) (rowOf v1 r) k :=
  catStage_apply (c := 256) (k0_pay1 v0 v18 v24) (k0_pay2 v1 v20 v30)
    Cert.KernelIdeal.Gen.concatenates_S2000x128_S2000x128_S2000x256_d1 rfl r k _ _
    (pay1_apply v0 v18 v24 r) (pay2_apply v1 v20 v30 r)

/-- The gate over blocks whose rows `r` are `ef` and `tf`, at `(r, q)`. -/
theorem gateStage_apply {R n : ℕ} (e t : FVec Ideal ⟨2, ![R, n]⟩ .f32) (r : Fin R) (q : Fin n)
    (ef tf : Fin n → EReal) (he : ∀ q, e (ix2 r q) = ef q) (ht : ∀ q, t (ix2 r q) = tf q) :
    tanh (divf (mulf e t) (broadcast ⟨2, ![R, n]⟩ (Scalar.ofBits .f32 0x41800000#32))) (ix2 r q) = gate ef tf q := by
  show Ideal.tanh (Ideal.div (e (ix2 r q) * t (ix2 r q)) sixteen) = _
  rw [he, ht]
  rfl

/-- The rectified hidden layer over blocks whose rows `r` are `gf` and `ef`, at `(r, q)`. -/
theorem hiddenStage_apply (g e : FVec Ideal ⟨2, ![2000, 128]⟩ .bf16) (wc w : FVec Ideal ⟨2, ![128, 32]⟩ .bf16)
    (D : DotDims ⟨2, ![2000, 128]⟩ ⟨2, ![128, 32]⟩ ⟨2, ![2000, 32]⟩) (hD : D = DotDims.plain 2000 128 32)
    (hwc hw : (⟨2, ![128, 32]⟩ : Shape).ShapeCasts ⟨2, ![128, 32]⟩) (r : Fin 2000) (q : Fin 32)
    (gf ef : Fin 128 → EReal) (hg : ∀ k, g (ix2 r k) = gf k) (he : ∀ k, e (ix2 r k) = ef k) :
    maximumf (addf (matmul D none g (shapeCast ⟨2, ![128, 32]⟩ wc hwc) (constant ⟨2, ![2000, 32]⟩ .f32 0x00000000#32))
        (matmul D none e (shapeCast ⟨2, ![128, 32]⟩ w hw) (constant ⟨2, ![2000, 32]⟩ .f32 0x00000000#32)))
      (broadcast ⟨2, ![2000, 32]⟩ (Scalar.ofBits .f32 0x00000000#32)) (ix2 r q)
      = hidden (matT wc) (matT w) gf ef q := by
  rw [maximumf_apply, addf_apply, linT_apply D hD g wc hwc r q gf hg, linT_apply D hD e w hw r q ef he]
  rfl

/-- The second modality's hidden layer at `(r, q)`, from the rows of its embedding block and of the joined block. -/
theorem pay7_apply (v33 : FVec Ideal S2000x128 .f32) (v35 : FVec Ideal S2000x256 .bf16) (v39 : Vec Ideal S256x128 .bf16)
    (v63 : Vec Ideal S128x32 .bf16) (v66 : Vec Ideal S128x32 .bf16) (r : Fin 2000) (q : Fin 32)
    (ef : Fin 128 → EReal) (avf : Fin 256 → EReal)
    (h33 : ∀ k, v33 (ix2 r k) = ef k) (h35 : ∀ k, v35 (ix2 r k) = avf k) :
    k0_pay7 v33 v35 v39 v63 v66 (ix2 r q)
      = hidden (matT v63) (matT v66) (gate ef (lin (matT v39) avf)) ef q :=
  hiddenStage_apply _ (k0_pay6 v33) v63 v66 dot_S2000x128_S128x32_S2000x32_1_0_0_1_n_n rfl _ _ r q _ _
    (fun k => gateStage_apply v33 _ r k ef _ h33
      fun k' => linT_apply dot_S2000x256_S256x128_S2000x128_1_0_0_1_n_n rfl v35 v39 _ r k' avf h35)
    h33

/-- The first modality's hidden layer times its transposed output weight at `(r, q)`, from the rows of its embedding
    block and of the joined block. -/
theorem pay8_apply (v27 : FVec Ideal S2000x128 .f32) (v35 : FVec Ideal S2000x256 .bf16) (v36 : Vec Ideal S256x128 .bf16)
    (v53 : Vec Ideal S128x32 .bf16) (v56 : Vec Ideal S128x32 .bf16) (v73 : Vec Ideal S32x8 .bf16)
    (r : Fin 2000) (q : Fin 8) (ef : Fin 128 → EReal) (avf : Fin 256 → EReal)
    (h27 : ∀ k, v27 (ix2 r k) = ef k) (h35 : ∀ k, v35 (ix2 r k) = avf k) :
    k0_pay8 v27 v35 (k0_pay4 v36) (constant (F := Ideal) S2000x128 .f32 0x00000000#32) v53 v56 v73 (ix2 r q)
      = lin (matT v73) (hidden (matT v53) (matT v56) (gate ef (lin (matT v36) avf)) ef) q :=
  linT_apply dot_S2000x32_S32x8_S2000x8_1_0_0_1_n_n rfl _ v73 _ r q _ fun k =>
    hiddenStage_apply _ (k0_pay5 v27) v53 v56 dot_S2000x128_S128x32_S2000x32_1_0_0_1_n_n rfl _ _ r k _ _
      (fun k' => gateStage_apply v27 _ r k' ef _ h27
        fun k'' => linT_apply dot_S2000x256_S256x128_S2000x128_1_0_0_1_n_n rfl v35 v36 _ r k'' avf h35)
      h27

/-- One modality's logits over blocks: the hidden layer's product, plus the embedding block times a transposed weight,
    plus the bias row, at `(r, q)`. -/
theorem logitsStage_apply (a : FVec Ideal ⟨2, ![2000, 8]⟩ .f32) (e : FVec Ideal ⟨2, ![2000, 128]⟩ .bf16)
    (E : FVec Ideal ⟨2, ![128, 8]⟩ .bf16) (b : FVec Ideal ⟨2, ![1, 8]⟩ .f32)
    (D : DotDims ⟨2, ![2000, 128]⟩ ⟨2, ![128, 8]⟩ ⟨2, ![2000, 8]⟩) (hD : D = DotDims.plain 2000 128 8)
    (hE : (⟨2, ![128, 8]⟩ : Shape).ShapeCasts ⟨2, ![128, 8]⟩)
    (hbc : (⟨2, ![1, 8]⟩ : Shape).ShapeCasts ⟨2, ![1, 8]⟩) (hbb : (⟨2, ![1, 8]⟩ : Shape).Broadcasts ⟨2, ![2000, 8]⟩)
    (r : Fin 2000) (q : Fin 8) (Wh : Fin 8 → Fin 32 → EReal) (hf : Fin 32 → EReal) (ef : Fin 128 → EReal)
    (ha : ∀ q, a (ix2 r q) = lin Wh hf q) (he : ∀ k, e (ix2 r k) = ef k) :
    addf (addf a (matmul D none e (shapeCast ⟨2, ![128, 8]⟩ E hE) (constant ⟨2, ![2000, 8]⟩ .f32 0x00000000#32)))
        (broadcastTo ⟨2, ![2000, 8]⟩ (shapeCast ⟨2, ![1, 8]⟩ b hbc) hbb) (ix2 r q)
      = logits Wh (matT E) (vecR b) hf ef q := by
  rw [addf_apply, addf_apply, ha, linT_apply D hD e E hE r q ef he, biasRow_apply b hbc hbb r q]
  rfl

/-- The regressor over blocks: both modalities' logits side by side through the two last layers, at `(r, 0)`. -/
theorem outStage_apply (A V : FVec Ideal ⟨2, ![2000, 8]⟩ .f32) (w1 : FVec Ideal ⟨2, ![16, 128]⟩ .bf16)
    (b1 : FVec Ideal ⟨2, ![1, 128]⟩ .f32) (w2 : FVec Ideal ⟨2, ![128, 1]⟩ .bf16) (b2 : FVec Ideal ⟨2, ![1, 1]⟩ .f32)
    (D1 : DotDims ⟨2, ![2000, 16]⟩ ⟨2, ![16, 128]⟩ ⟨2, ![2000, 128]⟩) (hD1 : D1 = DotDims.plain 2000 16 128)
    (D2 : DotDims ⟨2, ![2000, 128]⟩ ⟨2, ![128, 1]⟩ ⟨2, ![2000, 1]⟩) (hD2 : D2 = DotDims.plain 2000 128 1)
    (hcat : Shape.Concatenates [⟨2, ![2000, 8]⟩, ⟨2, ![2000, 8]⟩] ⟨2, ![2000, 16]⟩ 1)
    (hlt : FTy.bits .bf16 < FTy.bits .f32)
    (hw1 : (⟨2, ![16, 128]⟩ : Shape).ShapeCasts ⟨2, ![16, 128]⟩)
    (hb1c : (⟨2, ![1, 128]⟩ : Shape).ShapeCasts ⟨2, ![1, 128]⟩)
    (hb1b : (⟨2, ![1, 128]⟩ : Shape).Broadcasts ⟨2, ![2000, 128]⟩)
    (hw2 : (⟨2, ![128, 1]⟩ : Shape).ShapeCasts ⟨2, ![128, 1]⟩)
    (hb2c : (⟨2, ![1, 1]⟩ : Shape).ShapeCasts ⟨2, ![1, 1]⟩)
    (hb2b : (⟨2, ![1, 1]⟩ : Shape).Broadcasts ⟨2, ![2000, 1]⟩)
    (r : Fin 2000) (Af Vf : Fin 8 → EReal) (hA : ∀ q, A (ix2 r q) = Af q) (hV : ∀ q, V (ix2 r q) = Vf q) :
    addf (matmul D2 none (truncf .bf16 (addf (matmul D1 none (truncf .bf16
          (concatenate ⟨2, ![2000, 16]⟩ 1 [⟨⟨2, ![2000, 8]⟩, A⟩, ⟨⟨2, ![2000, 8]⟩, V⟩] hcat) hlt)
          (shapeCast ⟨2, ![16, 128]⟩ w1 hw1) (constant ⟨2, ![2000, 128]⟩ .f32 0x00000000#32))
          (broadcastTo ⟨2, ![2000, 128]⟩ (shapeCast ⟨2, ![1, 128]⟩ b1 hb1c) hb1b)) hlt)
        (shapeCast ⟨2, ![128, 1]⟩ w2 hw2) (constant ⟨2, ![2000, 1]⟩ .f32 0x00000000#32))
      (broadcastTo ⟨2, ![2000, 1]⟩ (shapeCast ⟨2, ![1, 1]⟩ b2 hb2c) hb2b) (ix2 r (0 : Fin 1))
      = lin (matT w2) (fun q => lin (matT w1) (cat (a := 8) (b := 8) (c := 16) rfl Af Vf) q + vecR b1 q) 0
          + vecR b2 0 := by
  rw [addf_apply, biasRow_apply b2 hb2c hb2b r 0]
  refine congrArg (· + vecR b2 0) ?_
  refine linT_apply D2 hD2 _ w2 hw2 r 0 _ fun k => ?_
  rw [truncf_apply, addf_apply, biasRow_apply b1 hb1c hb1b r k]
  refine congrArg (· + vecR b1 k) ?_
  exact linT_apply D1 hD1 _ w1 hw1 r k _ fun j => catStage_apply A V hcat rfl r j Af Vf hA hV

/-- The stored block at `(r, 0)`, from the rows of the two embedding blocks, of the second modality's hidden layer and of
    the first modality's hidden layer times its output weight. -/
theorem pay9_apply (v50 v51 : FVec Ideal S2000x128 .bf16) (v71 : FVec Ideal S2000x32 .f32) (v75 : FVec Ideal S2000x8 .f32)
    (v76 : Vec Ideal S128x8 .bf16) (v80 : Vec Ideal S1x8 .f32) (v85 : Vec Ideal S32x8 .bf16) (v88 : Vec Ideal S128x8 .bf16)
    (v92 : Vec Ideal S1x8 .f32) (v98 : Vec Ideal S16x128 .bf16) (v101 : Vec Ideal S1x128 .f32)
    (v106 : Vec Ideal S128x1 .bf16) (v109 : Vec Ideal S1x1 .f32) (r : Fin 2000)
    (Wh : Fin 8 → Fin 32 → EReal) (ha hv : Fin 32 → EReal) (ea ev : Fin 128 → EReal)
    (h50 : ∀ k, v50 (ix2 r k) = ea k) (h51 : ∀ k, v51 (ix2 r k) = ev k) (h71 : ∀ k, v71 (ix2 r k) = hv k)
    (h75 : ∀ q, v75 (ix2 r q) = lin Wh ha q) :
    k0_pay9 v50 v51 v71 v75 v76 v80 v85 v88 v92 v98 v101 v106 v109 (ix2 r (0 : Fin 1))
      = lin (matT v106) (fun q => lin (matT v98) (cat (a := 8) (b := 8) (c := 16) rfl
            (logits Wh (matT v76) (vecR v80) ha ea) (logits (matT v85) (matT v88) (vecR v92) hv ev)) q + vecR v101 q) 0
          + vecR v109 0 :=
  outStage_apply _ _ v98 v101 v106 v109 dot_S2000x16_S16x128_S2000x128_1_0_0_1_n_n rfl
    dot_S2000x128_S128x1_S2000x1_1_0_0_1_n_n rfl Cert.KernelIdeal.Gen.concatenates_S2000x8_S2000x8_S2000x16_d1
    Cert.KernelIdeal.Gen.bitsLt_bf16_f32 _ _ _ _ _ _ r _ _
    (fun q => logitsStage_apply v75 v50 v76 v80 dot_S2000x128_S128x8_S2000x8_1_0_0_1_n_n rfl _ _ _ r q Wh ha ea h75 h50)
    (fun q => logitsStage_apply _ v51 v88 v92 dot_S2000x128_S128x8_S2000x8_1_0_0_1_n_n rfl _ _ _ r q (matT v85) hv ev
      (fun q' => linT_apply dot_S2000x32_S32x8_S2000x8_1_0_0_1_n_n rfl _ v85 _ r q' hv h71) h51)

/-- The value the body stores, as one term over the staged blocks. -/
def body (x0 : Vec Ideal S2000x88 .f32) (x1 : Vec Ideal S2000x168 .f32) (x2 : Vec Ideal S88x128 .bf16) (x3 : Vec Ideal S1x128 .f32) (x4 : Vec Ideal S168x128 .bf16) (x5 : Vec Ideal S1x128 .f32) (x6 : Vec Ideal S256x128 .bf16) (x7 : Vec Ideal S256x128 .bf16) (x8 : Vec Ideal S128x32 .bf16) (x9 : Vec Ideal S128x32 .bf16) (x10 : Vec Ideal S128x32 .bf16) (x11 : Vec Ideal S128x32 .bf16) (x12 : Vec Ideal S32x8 .bf16) (x13 : Vec Ideal S32x8 .bf16) (x14 : Vec Ideal S128x8 .bf16) (x15 : Vec Ideal S1x8 .f32) (x16 : Vec Ideal S128x8 .bf16) (x17 : Vec Ideal S1x8 .f32) (x18 : Vec Ideal S16x128 .bf16) (x19 : Vec Ideal S1x128 .f32) (x20 : Vec Ideal S128x1 .bf16) (x21 : Vec Ideal S1x1 .f32) : FVec Ideal S2000x1 .f32 :=
  k0_pay9 (k0_pay5 (k0_pay1 x0 x2 x3)) (k0_pay6 (k0_pay2 x1 x4 x5))
    (k0_pay7 (k0_pay2 x1 x4 x5) (k0_pay3 x0 x1 x2 x4 x3 x5) x7 x11 x9)
    (k0_pay8 (k0_pay1 x0 x2 x3) (k0_pay3 x0 x1 x2 x4 x3 x5) (k0_pay4 x6) (constant S2000x128 .f32 0x00000000#32) x10 x8 x12)
    x14 x15 x13 x16 x17 x18 x19 x20 x21

/-- The stored block at `(r, 0)` is the row function of row `r` of the feature blocks. -/
theorem body_apply (x0 : Vec Ideal S2000x88 .f32) (x1 : Vec Ideal S2000x168 .f32) (x2 : Vec Ideal S88x128 .bf16) (x3 : Vec Ideal S1x128 .f32) (x4 : Vec Ideal S168x128 .bf16) (x5 : Vec Ideal S1x128 .f32) (x6 : Vec Ideal S256x128 .bf16) (x7 : Vec Ideal S256x128 .bf16) (x8 : Vec Ideal S128x32 .bf16) (x9 : Vec Ideal S128x32 .bf16) (x10 : Vec Ideal S128x32 .bf16) (x11 : Vec Ideal S128x32 .bf16) (x12 : Vec Ideal S32x8 .bf16) (x13 : Vec Ideal S32x8 .bf16) (x14 : Vec Ideal S128x8 .bf16) (x15 : Vec Ideal S1x8 .f32) (x16 : Vec Ideal S128x8 .bf16) (x17 : Vec Ideal S1x8 .f32) (x18 : Vec Ideal S16x128 .bf16) (x19 : Vec Ideal S1x128 .f32) (x20 : Vec Ideal S128x1 .bf16) (x21 : Vec Ideal S1x1 .f32) (r : Fin 2000) :
    body x0 x1 x2 x3 x4 x5 x6 x7 x8 x9 x10 x11 x12 x13 x14 x15 x16 x17 x18 x19 x20 x21 (ix2 r (0 : Fin 1))
      = out (matT x2) (vecR x3) (matT x4) (vecR x5) (matT x6) (matT x7) (matT x8) (matT x9) (matT x10) (matT x11) (matT x12) (matT x13) (matT x14) (vecR x15) (matT x16) (vecR x17) (matT x18) (vecR x19) (matT x20) (vecR x21) (rowOf x0 r) (rowOf x1 r) := by
  unfold body
  exact pay9_apply _ _ _ _ x14 x15 x13 x16 x17 x18 x19 x20 x21 r (matT x12) _ _ _ _
    (pay1_apply x0 x2 x3 r) (pay2_apply x1 x4 x5 r)
    (fun k => pay7_apply _ _ x7 x11 x9 r k _ _ (pay2_apply x1 x4 x5 r) (pay3_apply x0 x1 x2 x4 x3 x5 r))
    (fun q => pay8_apply _ _ x6 x10 x8 x12 r q _ _ (pay1_apply x0 x2 x3 r) (pay3_apply x0 x1 x2 x4 x3 x5 r))

end Cert.KernelRows

end
-- ==== Proof.KernelArray.lean ====
/-
  From the blocks the kernel writes back to the whole result array.

  The grid has 250 points; point `t` stages rows `2000·t … 2000·t + 1999` of the two feature arrays and the whole of
  every weight array, and writes back rows `2000·t … 2000·t + 1999` of the one-column result.  Before the region the
  program transposes each weight matrix (and changes its float format, which is the identity on the extended reals)
  and reshapes each bias `[o]` to one row `[1, o]`.  So:
  * a weight window's block, read transposed, is the stored weight matrix (`wt_K`); a bias window's block, read as its
    one row, is the stored bias (`bias_K`); row `r` of a feature window's block at point `t` is row `2000·t + r` of the
    feature array (`rows_0`, `rows_1`);
  * hence what point `t` writes back is block `t` of the one whole-array function `RowSpec.G` of the argument arrays
    (`flushed_eq`, through the body's row reading `KernelRows.body_apply`);
  * every row index `i` lies in the block of point `i / 2000` (`cover`), so the array ends at `G` everywhere (`final`),
    and the program's run is re-posted with its result named `G` of the arguments (`run`).
-/
import proofs.«118040_j58291296141385_1_alg».proof.Proof.Gen.KernelIdeal.Value
import proofs.«118040_j58291296141385_1_alg».proof.Proof.RowSpec
import proofs.«118040_j58291296141385_1_alg».proof.Proof.LibRowOps
import proofs.«118040_j58291296141385_1_alg».proof.Proof.KernelRows
import Idealize.ShloMosaic.Lib.ValueLayout
import Idealize.ShloMosaic.Lib.StableHlo.Run

noncomputable section

namespace Cert.KernelArray

open Cert.KernelIdeal Cert.KernelIdeal.Gen Cert.KernelIdeal.Value Idealize.ShloMosaic Idealize.ShloMosaic.TcCoe Idealize.SL.Sem
open Idealize.ShloMosaic.ValueIdx Cert.RowSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 250 grid points -/

/-- The two feature windows and the result window move down the rows with the point; -/
theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_22 : ∀ t : Fin cfg0.N, win0_22.index t (0 : Fin 2) = t.val ∧ win0_22.index t (1 : Fin 2) = 0 :=
  (by decide +kernel : ∀ t : Fin grid0.N, _)
/-- every weight and bias window stays at its array's one block. -/
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)
theorem idx_14 : ∀ t : Fin cfg0.N, win0_14.index t (0 : Fin 2) = 0 ∧ win0_14.index t (1 : Fin 2) = 0 :=
  (by decide +kernel : ∀ t : Fin grid0.N, _)
theorem idx_15 : ∀ t : Fin cfg0.N, win0_15.index t (0 : Fin 2) = 0 ∧ win0_15.index t (1 : Fin 2) = 0 :=
  (by decide +kernel : ∀ t : Fin grid0.N, _)
theorem idx_16 : ∀ t : Fin cfg0.N, win0_16.index t (0 : Fin 2) = 0 ∧ win0_16.index t (1 : Fin 2) = 0 :=
  (by decide +kernel : ∀ t : Fin grid0.N, _)
theorem idx_17 : ∀ t : Fin cfg0.N, win0_17.index t (0 : Fin 2) = 0 ∧ win0_17.index t (1 : Fin 2) = 0 :=
  (by decide +kernel : ∀ t : Fin grid0.N, _)
theorem idx_18 : ∀ t : Fin cfg0.N, win0_18.index t (0 : Fin 2) = 0 ∧ win0_18.index t (1 : Fin 2) = 0 :=
  (by decide +kernel : ∀ t : Fin grid0.N, _)
theorem idx_19 : ∀ t : Fin cfg0.N, win0_19.index t (0 : Fin 2) = 0 ∧ win0_19.index t (1 : Fin 2) = 0 :=
  (by decide +kernel : ∀ t : Fin grid0.N, _)
theorem idx_20 : ∀ t : Fin cfg0.N, win0_20.index t (0 : Fin 2) = 0 ∧ win0_20.index t (1 : Fin 2) = 0 :=
  (by decide +kernel : ∀ t : Fin grid0.N, _)
theorem idx_21 : ∀ t : Fin cfg0.N, win0_21.index t (0 : Fin 2) = 0 ∧ win0_21.index t (1 : Fin 2) = 0 :=
  (by decide +kernel : ∀ t : Fin grid0.N, _)

/-! ## The staged blocks, each named at its literal type -/

abbrev blk0 (c : Dev nD) (t : Fin cfg0.N) : Vec Ideal S2000x88 .f32 := iblk m c 0 t
abbrev blk1 (c : Dev nD) (t : Fin cfg0.N) : Vec Ideal S2000x168 .f32 := iblk m c 1 t
abbrev blk2 (c : Dev nD) (t : Fin cfg0.N) : Vec Ideal S88x128 .bf16 := iblk m c 2 t
abbrev blk3 (c : Dev nD) (t : Fin cfg0.N) : Vec Ideal S1x128 .f32 := iblk m c 3 t
abbrev blk4 (c : Dev nD) (t : Fin cfg0.N) : Vec Ideal S168x128 .bf16 := iblk m c 4 t
abbrev blk5 (c : Dev nD) (t : Fin cfg0.N) : Vec Ideal S1x128 .f32 := iblk m c 5 t
abbrev blk6 (c : Dev nD) (t : Fin cfg0.N) : Vec Ideal S256x128 .bf16 := iblk m c 6 t
abbrev blk7 (c : Dev nD) (t : Fin cfg0.N) : Vec Ideal S256x128 .bf16 := iblk m c 7 t
abbrev blk8 (c : Dev nD) (t : Fin cfg0.N) : Vec Ideal S128x32 .bf16 := iblk m c 8 t
abbrev blk9 (c : Dev nD) (t : Fin cfg0.N) : Vec Ideal S128x32 .bf16 := iblk m c 9 t
abbrev blk10 (c : Dev nD) (t : Fin cfg0.N) : Vec Ideal S128x32 .bf16 := iblk m c 10 t
abbrev blk11 (c : Dev nD) (t : Fin cfg0.N) : Vec Ideal S128x32 .bf16 := iblk m c 11 t
abbrev blk12 (c : Dev nD) (t : Fin cfg0.N) : Vec Ideal S32x8 .bf16 := iblk m c 12 t
abbrev blk13 (c : Dev nD) (t : Fin cfg0.N) : Vec Ideal S32x8 .bf16 := iblk m c 13 t
abbrev blk14 (c : Dev nD) (t : Fin cfg0.N) : Vec Ideal S128x8 .bf16 := iblk m c 14 t
abbrev blk15 (c : Dev nD) (t : Fin cfg0.N) : Vec Ideal S1x8 .f32 := iblk m c 15 t
abbrev blk16 (c : Dev nD) (t : Fin cfg0.N) : Vec Ideal S128x8 .bf16 := iblk m c 16 t
abbrev blk17 (c : Dev nD) (t : Fin cfg0.N) : Vec Ideal S1x8 .f32 := iblk m c 17 t
abbrev blk18 (c : Dev nD) (t : Fin cfg0.N) : Vec Ideal S16x128 .bf16 := iblk m c 18 t
abbrev blk19 (c : Dev nD) (t : Fin cfg0.N) : Vec Ideal S1x128 .f32 := iblk m c 19 t
abbrev blk20 (c : Dev nD) (t : Fin cfg0.N) : Vec Ideal S128x1 .bf16 := iblk m c 20 t
abbrev blk21 (c : Dev nD) (t : Fin cfg0.N) : Vec Ideal S1x1 .f32 := iblk m c 21 t

/-! ## What the host operations before the region leave in each staged array -/

theorem V_main_v1 (c : Dev nD) : @Eq (FVec Ideal S88x128 .bf16) (V m c main_v1)
    (truncf (F := Ideal) .bf16 (transpose S88x128 [1, 0] (m ((c : Thread nD τ).loc main_arg2)) transposes_S128x88_S88x128_1_0) bitsLt_bf16_f32) := by
  dsimp only [Gen.V, Gen.hostOps0]; after_results
theorem V_main_v28 (c : Dev nD) : @Eq (FVec Ideal S1x128 .f32) (V m c main_v28)
    (shapeCast S1x128 (m ((c : Thread nD τ).loc main_arg3)) shapeCasts_S128_S1x128) := by
  dsimp only [Gen.V, Gen.hostOps0]; after_results; rfl
theorem V_main_v3 (c : Dev nD) : @Eq (FVec Ideal S168x128 .bf16) (V m c main_v3)
    (truncf (F := Ideal) .bf16 (transpose S168x128 [1, 0] (m ((c : Thread nD τ).loc main_arg4)) transposes_S128x168_S168x128_1_0) bitsLt_bf16_f32) := by
  dsimp only [Gen.V, Gen.hostOps0]; after_results
theorem V_main_v29 (c : Dev nD) : @Eq (FVec Ideal S1x128 .f32) (V m c main_v29)
    (shapeCast S1x128 (m ((c : Thread nD τ).loc main_arg5)) shapeCasts_S128_S1x128) := by
  dsimp only [Gen.V, Gen.hostOps0]; after_results; rfl
theorem V_main_v5 (c : Dev nD) : @Eq (FVec Ideal S256x128 .bf16) (V m c main_v5)
    (truncf (F := Ideal) .bf16 (transpose S256x128 [1, 0] (m ((c : Thread nD τ).loc main_arg6)) transposes_S128x256_S256x128_1_0) bitsLt_bf16_f32) := by
  dsimp only [Gen.V, Gen.hostOps0]; after_results
theorem V_main_v7 (c : Dev nD) : @Eq (FVec Ideal S256x128 .bf16) (V m c main_v7)
    (truncf (F := Ideal) .bf16 (transpose S256x128 [1, 0] (m ((c : Thread nD τ).loc main_arg7)) transposes_S128x256_S256x128_1_0) bitsLt_bf16_f32) := by
  dsimp only [Gen.V, Gen.hostOps0]; after_results
theorem V_main_v9 (c : Dev nD) : @Eq (FVec Ideal S128x32 .bf16) (V m c main_v9)
    (truncf (F := Ideal) .bf16 (transpose S128x32 [1, 0] (m ((c : Thread nD τ).loc main_arg8)) transposes_S32x128_S128x32_1_0) bitsLt_bf16_f32) := by
  dsimp only [Gen.V, Gen.hostOps0]; after_results
theorem V_main_v11 (c : Dev nD) : @Eq (FVec Ideal S128x32 .bf16) (V m c main_v11)
    (truncf (F := Ideal) .bf16 (transpose S128x32 [1, 0] (m ((c : Thread nD τ).loc main_arg9)) transposes_S32x128_S128x32_1_0) bitsLt_bf16_f32) := by
  dsimp only [Gen.V, Gen.hostOps0]; after_results
theorem V_main_v13 (c : Dev nD) : @Eq (FVec Ideal S128x32 .bf16) (V m c main_v13)
    (truncf (F := Ideal) .bf16 (transpose S128x32 [1, 0] (m ((c : Thread nD τ).loc main_arg10)) transposes_S32x128_S128x32_1_0) bitsLt_bf16_f32) := by
  dsimp only [Gen.V, Gen.hostOps0]; after_results
theorem V_main_v15 (c : Dev nD) : @Eq (FVec Ideal S128x32 .bf16) (V m c main_v15)
    (truncf (F := Ideal) .bf16 (transpose S128x32 [1, 0] (m ((c : Thread nD τ).loc main_arg11)) transposes_S32x128_S128x32_1_0) bitsLt_bf16_f32) := by
  dsimp only [Gen.V, Gen.hostOps0]; after_results
theorem V_main_v17 (c : Dev nD) : @Eq (FVec Ideal S32x8 .bf16) (V m c main_v17)
    (truncf (F := Ideal) .bf16 (transpose S32x8 [1, 0] (m ((c : Thread nD τ).loc main_arg12)) transposes_S8x32_S32x8_1_0) bitsLt_bf16_f32) := by
  dsimp only [Gen.V, Gen.hostOps0]; after_results
theorem V_main_v19 (c : Dev nD) : @Eq (FVec Ideal S32x8 .bf16) (V m c main_v19)
    (truncf (F := Ideal) .bf16 (transpose S32x8 [1, 0] (m ((c : Thread nD τ).loc main_arg13)) transposes_S8x32_S32x8_1_0) bitsLt_bf16_f32) := by
  dsimp only [Gen.V, Gen.hostOps0]; after_results
theorem V_main_v21 (c : Dev nD) : @Eq (FVec Ideal S128x8 .bf16) (V m c main_v21)
    (truncf (F := Ideal) .bf16 (transpose S128x8 [1, 0] (m ((c : Thread nD τ).loc main_arg14)) transposes_S8x128_S128x8_1_0) bitsLt_bf16_f32) := by
  dsimp only [Gen.V, Gen.hostOps0]; after_results
theorem V_main_v30 (c : Dev nD) : @Eq (FVec Ideal S1x8 .f32) (V m c main_v30)
    (shapeCast S1x8 (m ((c : Thread nD τ).loc main_arg15)) shapeCasts_S8_S1x8) := by
  dsimp only [Gen.V, Gen.hostOps0]; after_results; rfl
theorem V_main_v23 (c : Dev nD) : @Eq (FVec Ideal S128x8 .bf16) (V m c main_v23)
    (truncf (F := Ideal) .bf16 (transpose S128x8 [1, 0] (m ((c : Thread nD τ).loc main_arg16)) transposes_S8x128_S128x8_1_0) bitsLt_bf16_f32) := by
  dsimp only [Gen.V, Gen.hostOps0]; after_results
theorem V_main_v31 (c : Dev nD) : @Eq (FVec Ideal S1x8 .f32) (V m c main_v31)
    (shapeCast S1x8 (m ((c : Thread nD τ).loc main_arg17)) shapeCasts_S8_S1x8) := by
  dsimp only [Gen.V, Gen.hostOps0]; after_results; rfl
theorem V_main_v25 (c : Dev nD) : @Eq (FVec Ideal S16x128 .bf16) (V m c main_v25)
    (truncf (F := Ideal) .bf16 (transpose S16x128 [1, 0] (m ((c : Thread nD τ).loc main_arg18)) transposes_S128x16_S16x128_1_0) bitsLt_bf16_f32) := by
  dsimp only [Gen.V, Gen.hostOps0]; after_results
theorem V_main_v32 (c : Dev nD) : @Eq (FVec Ideal S1x128 .f32) (V m c main_v32)
    (shapeCast S1x128 (m ((c : Thread nD τ).loc main_arg19)) shapeCasts_S128_S1x128) := by
  dsimp only [Gen.V, Gen.hostOps0]; after_results; rfl
theorem V_main_v27 (c : Dev nD) : @Eq (FVec Ideal S128x1 .bf16) (V m c main_v27)
    (truncf (F := Ideal) .bf16 (transpose S128x1 [1, 0] (m ((c : Thread nD τ).loc main_arg20)) transposes_S1x128_S128x1_1_0) bitsLt_bf16_f32) := by
  dsimp only [Gen.V, Gen.hostOps0]; after_results
theorem V_main_v33 (c : Dev nD) : @Eq (FVec Ideal S1x1 .f32) (V m c main_v33)
    (shapeCast S1x1 (m ((c : Thread nD τ).loc main_arg21)) shapeCasts_S1_S1x1) := by
  dsimp only [Gen.V, Gen.hostOps0]; after_results; rfl

/-! ## Each block as the specification reads it -/

/-- Row `r` of the first feature block at point `t` is row `2000·t + r` of the first feature array. -/
theorem rows_0 (c : Dev nD) (t : Fin cfg0.N) (r : Fin 2000) :
    rowOf (blk0 m c t) r = rowOf (m ((c : Thread nD τ).loc main_arg0))
      ⟨t.val * 2000 + r.val, by have ht : t.val < 250 := t.isLt; have := r.isLt; omega⟩ := by
  funext k
  show V m c main_arg0 (((cfg0.win 0).blk t).view.emb (ix2 r k)) = (m ((c : Thread nD τ).loc main_arg0)) (ix2 _ k)
  obtain ⟨e0, e1⟩ := idx_0 t
  rw [V_main_arg0]
  refine congrArg _ (funext fun a => Fin.ext ?_)
  match a with
  | ⟨0, _⟩ => show win0_0.index t (0 : Fin 2) * 2000 + 1 * r.val = t.val * 2000 + r.val; omega
  | ⟨1, _⟩ => show win0_0.index t (1 : Fin 2) * 88 + 1 * k.val = k.val; omega

/-- The same for the second feature array. -/
theorem rows_1 (c : Dev nD) (t : Fin cfg0.N) (r : Fin 2000) :
    rowOf (blk1 m c t) r = rowOf (m ((c : Thread nD τ).loc main_arg1))
      ⟨t.val * 2000 + r.val, by have ht : t.val < 250 := t.isLt; have := r.isLt; omega⟩ := by
  funext k
  show V m c main_arg1 (((cfg0.win 1).blk t).view.emb (ix2 r k)) = (m ((c : Thread nD τ).loc main_arg1)) (ix2 _ k)
  obtain ⟨e0, e1⟩ := idx_1 t
  rw [V_main_arg1]
  refine congrArg _ (funext fun a => Fin.ext ?_)
  match a with
  | ⟨0, _⟩ => show win0_1.index t (0 : Fin 2) * 2000 + 1 * r.val = t.val * 2000 + r.val; omega
  | ⟨1, _⟩ => show win0_1.index t (1 : Fin 2) * 168 + 1 * k.val = k.val; omega

/-- Window 2's block is the transpose of the stored matrix: read transposed, it is that matrix. -/
theorem wt_2 (c : Dev nD) (t : Fin cfg0.N) : matT (blk2 m c t) = mat (m ((c : Thread nD τ).loc main_arg2)) := by
  funext q k
  show V m c main_v1 (((cfg0.win 2).blk t).view.emb (ix2 k q)) = (m ((c : Thread nD τ).loc main_arg2)) (ix2 q k)
  obtain ⟨e0, e1⟩ := idx_2 t
  have he : ((cfg0.win 2).blk t).view.emb (ix2 k q) = ix2 k q := by
    funext a; apply Fin.ext
    match a with
    | ⟨0, _⟩ => show win0_2.index t (0 : Fin 2) * 88 + 1 * k.val = k.val; omega
    | ⟨1, _⟩ => show win0_2.index t (1 : Fin 2) * 128 + 1 * q.val = q.val; omega
  rw [he, V_main_v1]
  exact transpose_ix2_apply _ _ k q

/-- Window 3's block is the stored bias as one row. -/
theorem bias_3 (c : Dev nD) (t : Fin cfg0.N) : vecR (blk3 m c t) = vec (m ((c : Thread nD τ).loc main_arg3)) := by
  funext q
  show V m c main_v28 (((cfg0.win 3).blk t).view.emb (ix2 (0 : Fin 1) q)) = (m ((c : Thread nD τ).loc main_arg3)) (ix1 q)
  obtain ⟨e0, e1⟩ := idx_3 t
  have he : ((cfg0.win 3).blk t).view.emb (ix2 (0 : Fin 1) q) = ix2 (0 : Fin 1) q := by
    funext a; apply Fin.ext
    match a with
    | ⟨0, _⟩ => show win0_3.index t (0 : Fin 2) * 1 + 1 * 0 = 0; omega
    | ⟨1, _⟩ => show win0_3.index t (1 : Fin 2) * 128 + 1 * q.val = q.val; omega
  rw [he, V_main_v28]
  exact shapeCast_a_1a_apply _ _ 0 q

/-- Window 4's block is the transpose of the stored matrix: read transposed, it is that matrix. -/
theorem wt_4 (c : Dev nD) (t : Fin cfg0.N) : matT (blk4 m c t) = mat (m ((c : Thread nD τ).loc main_arg4)) := by
  funext q k
  show V m c main_v3 (((cfg0.win 4).blk t).view.emb (ix2 k q)) = (m ((c : Thread nD τ).loc main_arg4)) (ix2 q k)
  obtain ⟨e0, e1⟩ := idx_4 t
  have he : ((cfg0.win 4).blk t).view.emb (ix2 k q) = ix2 k q := by
    funext a; apply Fin.ext
    match a with
    | ⟨0, _⟩ => show win0_4.index t (0 : Fin 2) * 168 + 1 * k.val = k.val; omega
    | ⟨1, _⟩ => show win0_4.index t (1 : Fin 2) * 128 + 1 * q.val = q.val; omega
  rw [he, V_main_v3]
  exact transpose_ix2_apply _ _ k q

/-- Window 5's block is the stored bias as one row. -/
theorem bias_5 (c : Dev nD) (t : Fin cfg0.N) : vecR (blk5 m c t) = vec (m ((c : Thread nD τ).loc main_arg5)) := by
  funext q
  show V m c main_v29 (((cfg0.win 5).blk t).view.emb (ix2 (0 : Fin 1) q)) = (m ((c : Thread nD τ).loc main_arg5)) (ix1 q)
  obtain ⟨e0, e1⟩ := idx_5 t
  have he : ((cfg0.win 5).blk t).view.emb (ix2 (0 : Fin 1) q) = ix2 (0 : Fin 1) q := by
    funext a; apply Fin.ext
    match a with
    | ⟨0, _⟩ => show win0_5.index t (0 : Fin 2) * 1 + 1 * 0 = 0; omega
    | ⟨1, _⟩ => show win0_5.index t (1 : Fin 2) * 128 + 1 * q.val = q.val; omega
  rw [he, V_main_v29]
  exact shapeCast_a_1a_apply _ _ 0 q

/-- Window 6's block is the transpose of the stored matrix: read transposed, it is that matrix. -/
theorem wt_6 (c : Dev nD) (t : Fin cfg0.N) : matT (blk6 m c t) = mat (m ((c : Thread nD τ).loc main_arg6)) := by
  funext q k
  show V m c main_v5 (((cfg0.win 6).blk t).view.emb (ix2 k q)) = (m ((c : Thread nD τ).loc main_arg6)) (ix2 q k)
  obtain ⟨e0, e1⟩ := idx_6 t
  have he : ((cfg0.win 6).blk t).view.emb (ix2 k q) = ix2 k q := by
    funext a; apply Fin.ext
    match a with
    | ⟨0, _⟩ => show win0_6.index t (0 : Fin 2) * 256 + 1 * k.val = k.val; omega
    | ⟨1, _⟩ => show win0_6.index t (1 : Fin 2) * 128 + 1 * q.val = q.val; omega
  rw [he, V_main_v5]
  exact transpose_ix2_apply _ _ k q

/-- Window 7's block is the transpose of the stored matrix: read transposed, it is that matrix. -/
theorem wt_7 (c : Dev nD) (t : Fin cfg0.N) : matT (blk7 m c t) = mat (m ((c : Thread nD τ).loc main_arg7)) := by
  funext q k
  show V m c main_v7 (((cfg0.win 7).blk t).view.emb (ix2 k q)) = (m ((c : Thread nD τ).loc main_arg7)) (ix2 q k)
  obtain ⟨e0, e1⟩ := idx_7 t
  have he : ((cfg0.win 7).blk t).view.emb (ix2 k q) = ix2 k q := by
    funext a; apply Fin.ext
    match a with
    | ⟨0, _⟩ => show win0_7.index t (0 : Fin 2) * 256 + 1 * k.val = k.val; omega
    | ⟨1, _⟩ => show win0_7.index t (1 : Fin 2) * 128 + 1 * q.val = q.val; omega
  rw [he, V_main_v7]
  exact transpose_ix2_apply _ _ k q

/-- Window 8's block is the transpose of the stored matrix: read transposed, it is that matrix. -/
theorem wt_8 (c : Dev nD) (t : Fin cfg0.N) : matT (blk8 m c t) = mat (m ((c : Thread nD τ).loc main_arg8)) := by
  funext q k
  show V m c main_v9 (((cfg0.win 8).blk t).view.emb (ix2 k q)) = (m ((c : Thread nD τ).loc main_arg8)) (ix2 q k)
  obtain ⟨e0, e1⟩ := idx_8 t
  have he : ((cfg0.win 8).blk t).view.emb (ix2 k q) = ix2 k q := by
    funext a; apply Fin.ext
    match a with
    | ⟨0, _⟩ => show win0_8.index t (0 : Fin 2) * 128 + 1 * k.val = k.val; omega
    | ⟨1, _⟩ => show win0_8.index t (1 : Fin 2) * 32 + 1 * q.val = q.val; omega
  rw [he, V_main_v9]
  exact transpose_ix2_apply _ _ k q

/-- Window 9's block is the transpose of the stored matrix: read transposed, it is that matrix. -/
theorem wt_9 (c : Dev nD) (t : Fin cfg0.N) : matT (blk9 m c t) = mat (m ((c : Thread nD τ).loc main_arg9)) := by
  funext q k
  show V m c main_v11 (((cfg0.win 9).blk t).view.emb (ix2 k q)) = (m ((c : Thread nD τ).loc main_arg9)) (ix2 q k)
  obtain ⟨e0, e1⟩ := idx_9 t
  have he : ((cfg0.win 9).blk t).view.emb (ix2 k q) = ix2 k q := by
    funext a; apply Fin.ext
    match a with
    | ⟨0, _⟩ => show win0_9.index t (0 : Fin 2) * 128 + 1 * k.val = k.val; omega
    | ⟨1, _⟩ => show win0_9.index t (1 : Fin 2) * 32 + 1 * q.val = q.val; omega
  rw [he, V_main_v11]
  exact transpose_ix2_apply _ _ k q

/-- Window 10's block is the transpose of the stored matrix: read transposed, it is that matrix. -/
theorem wt_10 (c : Dev nD) (t : Fin cfg0.N) : matT (blk10 m c t) = mat (m ((c : Thread nD τ).loc main_arg10)) := by
  funext q k
  show V m c main_v13 (((cfg0.win 10).blk t).view.emb (ix2 k q)) = (m ((c : Thread nD τ).loc main_arg10)) (ix2 q k)
  obtain ⟨e0, e1⟩ := idx_10 t
  have he : ((cfg0.win 10).blk t).view.emb (ix2 k q) = ix2 k q := by
    funext a; apply Fin.ext
    match a with
    | ⟨0, _⟩ => show win0_10.index t (0 : Fin 2) * 128 + 1 * k.val = k.val; omega
    | ⟨1, _⟩ => show win0_10.index t (1 : Fin 2) * 32 + 1 * q.val = q.val; omega
  rw [he, V_main_v13]
  exact transpose_ix2_apply _ _ k q

/-- Window 11's block is the transpose of the stored matrix: read transposed, it is that matrix. -/
theorem wt_11 (c : Dev nD) (t : Fin cfg0.N) : matT (blk11 m c t) = mat (m ((c : Thread nD τ).loc main_arg11)) := by
  funext q k
  show V m c main_v15 (((cfg0.win 11).blk t).view.emb (ix2 k q)) = (m ((c : Thread nD τ).loc main_arg11)) (ix2 q k)
  obtain ⟨e0, e1⟩ := idx_11 t
  have he : ((cfg0.win 11).blk t).view.emb (ix2 k q) = ix2 k q := by
    funext a; apply Fin.ext
    match a with
    | ⟨0, _⟩ => show win0_11.index t (0 : Fin 2) * 128 + 1 * k.val = k.val; omega
    | ⟨1, _⟩ => show win0_11.index t (1 : Fin 2) * 32 + 1 * q.val = q.val; omega
  rw [he, V_main_v15]
  exact transpose_ix2_apply _ _ k q

/-- Window 12's block is the transpose of the stored matrix: read transposed, it is that matrix. -/
theorem wt_12 (c : Dev nD) (t : Fin cfg0.N) : matT (blk12 m c t) = mat (m ((c : Thread nD τ).loc main_arg12)) := by
  funext q k
  show V m c main_v17 (((cfg0.win 12).blk t).view.emb (ix2 k q)) = (m ((c : Thread nD τ).loc main_arg12)) (ix2 q k)
  obtain ⟨e0, e1⟩ := idx_12 t
  have he : ((cfg0.win 12).blk t).view.emb (ix2 k q) = ix2 k q := by
    funext a; apply Fin.ext
    match a with
    | ⟨0, _⟩ => show win0_12.index t (0 : Fin 2) * 32 + 1 * k.val = k.val; omega
    | ⟨1, _⟩ => show win0_12.index t (1 : Fin 2) * 8 + 1 * q.val = q.val; omega
  rw [he, V_main_v17]
  exact transpose_ix2_apply _ _ k q

/-- Window 13's block is the transpose of the stored matrix: read transposed, it is that matrix. -/
theorem wt_13 (c : Dev nD) (t : Fin cfg0.N) : matT (blk13 m c t) = mat (m ((c : Thread nD τ).loc main_arg13)) := by
  funext q k
  show V m c main_v19 (((cfg0.win 13).blk t).view.emb (ix2 k q)) = (m ((c : Thread nD τ).loc main_arg13)) (ix2 q k)
  obtain ⟨e0, e1⟩ := idx_13 t
  have he : ((cfg0.win 13).blk t).view.emb (ix2 k q) = ix2 k q := by
    funext a; apply Fin.ext
    match a with
    | ⟨0, _⟩ => show win0_13.index t (0 : Fin 2) * 32 + 1 * k.val = k.val; omega
    | ⟨1, _⟩ => show win0_13.index t (1 : Fin 2) * 8 + 1 * q.val = q.val; omega
  rw [he, V_main_v19]
  exact transpose_ix2_apply _ _ k q

/-- Window 14's block is the transpose of the stored matrix: read transposed, it is that matrix. -/
theorem wt_14 (c : Dev nD) (t : Fin cfg0.N) : matT (blk14 m c t) = mat (m ((c : Thread nD τ).loc main_arg14)) := by
  funext q k
  show V m c main_v21 (((cfg0.win 14).blk t).view.emb (ix2 k q)) = (m ((c : Thread nD τ).loc main_arg14)) (ix2 q k)
  obtain ⟨e0, e1⟩ := idx_14 t
  have he : ((cfg0.win 14).blk t).view.emb (ix2 k q) = ix2 k q := by
    funext a; apply Fin.ext
    match a with
    | ⟨0, _⟩ => show win0_14.index t (0 : Fin 2) * 128 + 1 * k.val = k.val; omega
    | ⟨1, _⟩ => show win0_14.index t (1 : Fin 2) * 8 + 1 * q.val = q.val; omega
  rw [he, V_main_v21]
  exact transpose_ix2_apply _ _ k q

/-- Window 15's block is the stored bias as one row. -/
theorem bias_15 (c : Dev nD) (t : Fin cfg0.N) : vecR (blk15 m c t) = vec (m ((c : Thread nD τ).loc main_arg15)) := by
  funext q
  show V m c main_v30 (((cfg0.win 15).blk t).view.emb (ix2 (0 : Fin 1) q)) = (m ((c : Thread nD τ).loc main_arg15)) (ix1 q)
  obtain ⟨e0, e1⟩ := idx_15 t
  have he : ((cfg0.win 15).blk t).view.emb (ix2 (0 : Fin 1) q) = ix2 (0 : Fin 1) q := by
    funext a; apply Fin.ext
    match a with
    | ⟨0, _⟩ => show win0_15.index t (0 : Fin 2) * 1 + 1 * 0 = 0; omega
    | ⟨1, _⟩ => show win0_15.index t (1 : Fin 2) * 8 + 1 * q.val = q.val; omega
  rw [he, V_main_v30]
  exact shapeCast_a_1a_apply _ _ 0 q

/-- Window 16's block is the transpose of the stored matrix: read transposed, it is that matrix. -/
theorem wt_16 (c : Dev nD) (t : Fin cfg0.N) : matT (blk16 m c t) = mat (m ((c : Thread nD τ).loc main_arg16)) := by
  funext q k
  show V m c main_v23 (((cfg0.win 16).blk t).view.emb (ix2 k q)) = (m ((c : Thread nD τ).loc main_arg16)) (ix2 q k)
  obtain ⟨e0, e1⟩ := idx_16 t
  have he : ((cfg0.win 16).blk t).view.emb (ix2 k q) = ix2 k q := by
    funext a; apply Fin.ext
    match a with
    | ⟨0, _⟩ => show win0_16.index t (0 : Fin 2) * 128 + 1 * k.val = k.val; omega
    | ⟨1, _⟩ => show win0_16.index t (1 : Fin 2) * 8 + 1 * q.val = q.val; omega
  rw [he, V_main_v23]
  exact transpose_ix2_apply _ _ k q

/-- Window 17's block is the stored bias as one row. -/
theorem bias_17 (c : Dev nD) (t : Fin cfg0.N) : vecR (blk17 m c t) = vec (m ((c : Thread nD τ).loc main_arg17)) := by
  funext q
  show V m c main_v31 (((cfg0.win 17).blk t).view.emb (ix2 (0 : Fin 1) q)) = (m ((c : Thread nD τ).loc main_arg17)) (ix1 q)
  obtain ⟨e0, e1⟩ := idx_17 t
  have he : ((cfg0.win 17).blk t).view.emb (ix2 (0 : Fin 1) q) = ix2 (0 : Fin 1) q := by
    funext a; apply Fin.ext
    match a with
    | ⟨0, _⟩ => show win0_17.index t (0 : Fin 2) * 1 + 1 * 0 = 0; omega
    | ⟨1, _⟩ => show win0_17.index t (1 : Fin 2) * 8 + 1 * q.val = q.val; omega
  rw [he, V_main_v31]
  exact shapeCast_a_1a_apply _ _ 0 q

/-- Window 18's block is the transpose of the stored matrix: read transposed, it is that matrix. -/
theorem wt_18 (c : Dev nD) (t : Fin cfg0.N) : matT (blk18 m c t) = mat (m ((c : Thread nD τ).loc main_arg18)) := by
  funext q k
  show V m c main_v25 (((cfg0.win 18).blk t).view.emb (ix2 k q)) = (m ((c : Thread nD τ).loc main_arg18)) (ix2 q k)
  obtain ⟨e0, e1⟩ := idx_18 t
  have he : ((cfg0.win 18).blk t).view.emb (ix2 k q) = ix2 k q := by
    funext a; apply Fin.ext
    match a with
    | ⟨0, _⟩ => show win0_18.index t (0 : Fin 2) * 16 + 1 * k.val = k.val; omega
    | ⟨1, _⟩ => show win0_18.index t (1 : Fin 2) * 128 + 1 * q.val = q.val; omega
  rw [he, V_main_v25]
  exact transpose_ix2_apply _ _ k q

/-- Window 19's block is the stored bias as one row. -/
theorem bias_19 (c : Dev nD) (t : Fin cfg0.N) : vecR (blk19 m c t) = vec (m ((c : Thread nD τ).loc main_arg19)) := by
  funext q
  show V m c main_v32 (((cfg0.win 19).blk t).view.emb (ix2 (0 : Fin 1) q)) = (m ((c : Thread nD τ).loc main_arg19)) (ix1 q)
  obtain ⟨e0, e1⟩ := idx_19 t
  have he : ((cfg0.win 19).blk t).view.emb (ix2 (0 : Fin 1) q) = ix2 (0 : Fin 1) q := by
    funext a; apply Fin.ext
    match a with
    | ⟨0, _⟩ => show win0_19.index t (0 : Fin 2) * 1 + 1 * 0 = 0; omega
    | ⟨1, _⟩ => show win0_19.index t (1 : Fin 2) * 128 + 1 * q.val = q.val; omega
  rw [he, V_main_v32]
  exact shapeCast_a_1a_apply _ _ 0 q

/-- Window 20's block is the transpose of the stored matrix: read transposed, it is that matrix. -/
theorem wt_20 (c : Dev nD) (t : Fin cfg0.N) : matT (blk20 m c t) = mat (m ((c : Thread nD τ).loc main_arg20)) := by
  funext q k
  show V m c main_v27 (((cfg0.win 20).blk t).view.emb (ix2 k q)) = (m ((c : Thread nD τ).loc main_arg20)) (ix2 q k)
  obtain ⟨e0, e1⟩ := idx_20 t
  have he : ((cfg0.win 20).blk t).view.emb (ix2 k q) = ix2 k q := by
    funext a; apply Fin.ext
    match a with
    | ⟨0, _⟩ => show win0_20.index t (0 : Fin 2) * 128 + 1 * k.val = k.val; omega
    | ⟨1, _⟩ => show win0_20.index t (1 : Fin 2) * 1 + 1 * q.val = q.val; omega
  rw [he, V_main_v27]
  exact transpose_ix2_apply _ _ k q

/-- Window 21's block is the stored bias as one row. -/
theorem bias_21 (c : Dev nD) (t : Fin cfg0.N) : vecR (blk21 m c t) = vec (m ((c : Thread nD τ).loc main_arg21)) := by
  funext q
  show V m c main_v33 (((cfg0.win 21).blk t).view.emb (ix2 (0 : Fin 1) q)) = (m ((c : Thread nD τ).loc main_arg21)) (ix1 q)
  obtain ⟨e0, e1⟩ := idx_21 t
  have he : ((cfg0.win 21).blk t).view.emb (ix2 (0 : Fin 1) q) = ix2 (0 : Fin 1) q := by
    funext a; apply Fin.ext
    match a with
    | ⟨0, _⟩ => show win0_21.index t (0 : Fin 2) * 1 + 1 * 0 = 0; omega
    | ⟨1, _⟩ => show win0_21.index t (1 : Fin 2) * 1 + 1 * q.val = q.val; omega
  rw [he, V_main_v33]
  exact shapeCast_a_1a_apply _ _ 0 q

/-! ## What a point writes back -/

/-- The result array as one function of the argument arrays as launched. -/
abbrev GA (c : Dev nD) : S500000x1.Idx → EReal := G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))

/-- WHAT POINT `t` WRITES BACK is block `t` of `G` of the argument arrays: the body's stored value at row `r` is the
    row function of row `r` of the staged blocks, which are rows `2000·t + r` of the feature arrays and the stored
    weights. -/
theorem flushed_eq (c : Dev nD) (t : Fin cfg0.N) :
    (dats m 0 c).flushed 22 t = ((cfg0.win 22).blk t).view.read (Elt Ideal) (GA m c) := by
  rw [Value.flushed22]
  unfold out0_22
  rw [View.canon_unit_zero hz]
  simp only [View.ld_unit_zero (S := S2000x88) hz, View.ld_unit_zero (S := S2000x168) hz, View.ld_unit_zero (S := S88x128) hz, View.ld_unit_zero (S := S168x128) hz, View.ld_unit_zero (S := S1x128) hz, View.ld_unit_zero (S := S256x128) hz, View.ld_unit_zero (S := S128x32) hz, View.ld_unit_zero (S := S32x8) hz, View.ld_unit_zero (S := S128x8) hz, View.ld_unit_zero (S := S1x8) hz, View.ld_unit_zero (S := S16x128) hz, View.ld_unit_zero (S := S128x1) hz, View.ld_unit_zero (S := S1x1) hz]
  funext j
  obtain ⟨r, u, rfl⟩ : ∃ (r : Fin 2000) (u : Fin 1), j = ix2 r u := ⟨j 0, j 1, eq_ix2 j⟩
  obtain rfl : u = 0 := Subsingleton.elim _ _
  show Cert.KernelRows.body (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (ix2 r (0 : Fin 1))
    = GA m c (((cfg0.win 22).blk t).view.emb (ix2 r (0 : Fin 1)))
  rw [Cert.KernelRows.body_apply, rows_0 m c t r, rows_1 m c t r, wt_2 m c t, bias_3 m c t, wt_4 m c t, bias_5 m c t, wt_6 m c t, wt_7 m c t, wt_8 m c t, wt_9 m c t, wt_10 m c t, wt_11 m c t, wt_12 m c t, wt_13 m c t, wt_14 m c t, bias_15 m c t, wt_16 m c t, bias_17 m c t, wt_18 m c t, bias_19 m c t, wt_20 m c t, bias_21 m c t]
  obtain ⟨e0, e1⟩ := idx_22 t
  have hrow : (⟨((((cfg0.win 22).blk t).view.emb (ix2 r (0 : Fin 1))) 0).val, ((((cfg0.win 22).blk t).view.emb (ix2 r (0 : Fin 1))) 0).isLt⟩ : Fin 500000)
      = ⟨t.val * 2000 + r.val, by have ht : t.val < 250 := t.isLt; have := r.isLt; omega⟩ :=
    Fin.ext (by show win0_22.index t (0 : Fin 2) * 2000 + 1 * r.val = t.val * 2000 + r.val; omega)
  show _ = out _ _ _ _ _ _ _ _ _ _ _ _ _ _ _ _ _ _ _ _ (rowOf _ _) (rowOf _ _)
  rw [hrow]

/-! ## The blocks cover the array -/

/-- An index of the array is in point `t`'s block iff each coordinate is in the block's range on its axis. -/
theorem mem_blk (t : Fin cfg0.N) (i : S500000x1.Idx) :
    i ∈ ((cfg0.win 22).blk t).view.set ↔ ∀ a : Fin 2, win0_22.index t a * S2000x1.size a ≤ (i a).val ∧ (i a).val < win0_22.index t a * S2000x1.size a + S2000x1.size a := by
  show i ∈ ((View.whole main_v34).slice (win0_22.rect t)).set ↔ _
  rw [View.set_slice_whole, Rect.mem_set_unit]
  exact Iff.rfl

/-- Row `i` lies in the block of point `i / 2000`, which writes back. -/
theorem cover (i : S500000x1.Idx) :
    ∃ t : Fin cfg0.N, (cfg0.win 22).flush t = true ∧ i ∈ ((cfg0.win 22).blk t).view.set := by
  have hi0 : (i 0).val < 500000 := (i 0).isLt
  have hi1 : (i 1).val < 1 := (i 1).isLt
  let t : Fin cfg0.N := ⟨(i 0).val / 2000, by show _ < 250; omega⟩
  obtain ⟨e0, e1⟩ := idx_22 t
  have ht : t.val = (i 0).val / 2000 := rfl
  refine ⟨t, flush0_22 t, ?_⟩
  rw [mem_blk]
  intro a
  match a with
  | ⟨0, _⟩ => show win0_22.index t (0 : Fin 2) * 2000 ≤ (i 0).val ∧ (i 0).val < win0_22.index t (0 : Fin 2) * 2000 + 2000; omega
  | ⟨1, _⟩ => show win0_22.index t (1 : Fin 2) * 1 ≤ (i 1).val ∧ (i 1).val < win0_22.index t (1 : Fin 2) * 1 + 1; omega

/-- THE ARRAY after the run is `G` of the argument arrays. -/
theorem final (c : Dev nD) : (dats m 0 c).arrAt 22 cfg0.N = GA m c :=
  (dats m 0 c).arrAt_eq_of_cover 22 (GA m c) (fun t _ => flushed_eq m c t) cover

/-! ## The run, read -/

/-- The program's run re-posted: the result array at `G` of the arguments, the arguments unchanged. -/
theorem run : θ_run defs (onTc (τ := τ) (main (F := Ideal))) ⟨m, fun _ => 0, ρ⟩ fun r => ∀ c : Dev nD,
      r.2.mem ((c : Thread nD τ).loc main_v34) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21) :=
  (θ_run defs _ _).mono (fun r h c => ⟨(h c).1.trans (final m c), (h c).2⟩) (Value.run_blocks m ρ)

end Cert.KernelArray

end
-- ==== Proof.RefRows.lean ====
/-
  The reference program read row by row: its result at row `b` is the row function `RowSpec.out` of row `b` of the
  two feature arrays, each weight read in its stored layout (the program contracts against the transposes).
-/
import proofs.«118040_j58291296141385_1_alg».proof.Proof.Gen.ReferenceIdeal.Read
import proofs.«118040_j58291296141385_1_alg».proof.Proof.RowSpec
import proofs.«118040_j58291296141385_1_alg».proof.Proof.LibRowOps

noncomputable section

namespace Cert.RefRows

open Idealize.ShloMosaic Idealize.ShloMosaic.ValueIdx Cert.ReferenceIdeal Cert.ReferenceIdeal.Read Cert.RowSpec
open scoped BigOperators

section Stages

variable (x0 : (⟨S500000x88, .f32⟩ : BufTy).Contents (Elt Ideal)) (x1 : (⟨S500000x168, .f32⟩ : BufTy).Contents (Elt Ideal))
  (x2 : (⟨S128x88, .f32⟩ : BufTy).Contents (Elt Ideal)) (x3 : (⟨S128, .f32⟩ : BufTy).Contents (Elt Ideal))
  (x4 : (⟨S128x168, .f32⟩ : BufTy).Contents (Elt Ideal)) (x5 : (⟨S128, .f32⟩ : BufTy).Contents (Elt Ideal))
  (x6 x7 : (⟨S128x256, .f32⟩ : BufTy).Contents (Elt Ideal))
  (x8 x9 x10 x11 : (⟨S32x128, .f32⟩ : BufTy).Contents (Elt Ideal))
  (x12 x13 : (⟨S8x32, .f32⟩ : BufTy).Contents (Elt Ideal))
  (x14 : (⟨S8x128, .f32⟩ : BufTy).Contents (Elt Ideal)) (x15 : (⟨S8, .f32⟩ : BufTy).Contents (Elt Ideal))
  (x16 : (⟨S8x128, .f32⟩ : BufTy).Contents (Elt Ideal)) (x17 : (⟨S8, .f32⟩ : BufTy).Contents (Elt Ideal))
  (x18 : (⟨S128x16, .f32⟩ : BufTy).Contents (Elt Ideal)) (x19 : (⟨S128, .f32⟩ : BufTy).Contents (Elt Ideal))
  (x20 : (⟨S1x128, .f32⟩ : BufTy).Contents (Elt Ideal)) (x21 : (⟨S1, .f32⟩ : BufTy).Contents (Elt Ideal))
  (b : Fin 500000)

/-! ## Normalised rows -/

/-- The first feature array divided row by row by its floored norm. -/
theorem v7_row (j : Fin 88) : val_main_v7 (F := Ideal) x0 (ix2 b j) = l2n (rowOf x0 b) j := by
  rw [val_main_v7_apply, val_main_v6_apply, val_main_v5_apply, val_main_v3_apply, val_main_v4_apply, val_main_v2_apply,
    val_main_v1_apply]
  have e : ∀ k : Fin 88, idx_main_v1 (idx_main_v2 (idx_main_v6 (ix2 b j))) k = ix2 b k := fun k =>
    funext fun a => Fin.ext (by match a with | ⟨0, _⟩ => rfl | ⟨1, _⟩ => rfl)
  simp only [e, val_main_v0_apply, val_main_cst_apply, val_main_cst_0_apply, Ideal.ofBits_def, Ideal.ofBits_zero_f32, zero_add,
    Ideal.mulf_def, Ideal.hostDivf_def, Ideal.maximumf_def, Ideal.hostUnary_sqrt_def, l2n, rowOf, eps]

/-- The second feature array divided row by row by its floored norm. -/
theorem v15_row (j : Fin 168) : val_main_v15 (F := Ideal) x1 (ix2 b j) = l2n (rowOf x1 b) j := by
  rw [val_main_v15_apply, val_main_v14_apply, val_main_v13_apply, val_main_v11_apply, val_main_v12_apply, val_main_v10_apply,
    val_main_v9_apply]
  have e : ∀ k : Fin 168, idx_main_v9 (idx_main_v10 (idx_main_v14 (ix2 b j))) k = ix2 b k := fun k =>
    funext fun a => Fin.ext (by match a with | ⟨0, _⟩ => rfl | ⟨1, _⟩ => rfl)
  simp only [e, val_main_v8_apply, val_main_cst_1_apply, val_main_cst_2_apply, Ideal.ofBits_def, Ideal.ofBits_zero_f32, zero_add,
    Ideal.mulf_def, Ideal.hostDivf_def, Ideal.maximumf_def, Ideal.hostUnary_sqrt_def, l2n, rowOf, eps]

/-! ## The two embeddings and their join -/

/-- The first embedding: the normalised row against the transposed weight, plus the bias. -/
theorem v20_row (q : Fin 128) :
    val_main_v20 (F := Ideal) x0 x2 x3 (ix2 b q) = emb (mat x2) (vec x3) (rowOf x0 b) q := by
  rw [val_main_v20_apply, val_main_v17_apply, val_main_v19_apply, val_main_v18_apply]
  have el : ∀ k : Fin 88, lidx_main_v17 (ix2 b q) k = ix2 b k := fun k => funext fun a => Fin.ext (by match a with | ⟨0, _⟩ => rfl | ⟨1, _⟩ => rfl)
  have er : ∀ k : Fin 88, idx_main_v16 (ridx_main_v17 (ix2 b q) k) = ix2 q k := fun k => funext fun a => Fin.ext (by match a with | ⟨0, _⟩ => rfl | ⟨1, _⟩ => rfl)
  have eb : idx_main_v18 (idx_main_v19 (ix2 b q)) = ix1 q := funext fun a => Fin.ext (by match a with | ⟨0, _⟩ => rfl)
  simp only [el, er, eb, val_main_v16_apply, v7_row, Ideal.addf_def, emb, lin, mat, vec]

/-- The second embedding. -/
theorem v25_row (q : Fin 128) :
    val_main_v25 (F := Ideal) x1 x4 x5 (ix2 b q) = emb (mat x4) (vec x5) (rowOf x1 b) q := by
  rw [val_main_v25_apply, val_main_v22_apply, val_main_v24_apply, val_main_v23_apply]
  have el : ∀ k : Fin 168, lidx_main_v22 (ix2 b q) k = ix2 b k := fun k => funext fun a => Fin.ext (by match a with | ⟨0, _⟩ => rfl | ⟨1, _⟩ => rfl)
  have er : ∀ k : Fin 168, idx_main_v21 (ridx_main_v22 (ix2 b q) k) = ix2 q k := fun k => funext fun a => Fin.ext (by match a with | ⟨0, _⟩ => rfl | ⟨1, _⟩ => rfl)
  have eb : idx_main_v23 (idx_main_v24 (ix2 b q)) = ix1 q := funext fun a => Fin.ext (by match a with | ⟨0, _⟩ => rfl)
  simp only [el, er, eb, val_main_v21_apply, v15_row, Ideal.addf_def, emb, lin, mat, vec]

/-- The two embeddings side by side. -/
theorem v26_row (k : Fin 256) :
    val_main_v26 (F := Ideal) x0 x1 x2 x3 x4 x5 (ix2 b k) = av (mat x2) (vec x3) (mat x4) (vec x5) (rowOf x0 b) (rowOf x1 b) k := by
  unfold val_main_v26
  refine (Cert.RowOps.concatenate_cols_apply (val_main_v20 (F := Ideal) x0 x2 x3) (val_main_v25 (F := Ideal) x1 x4 x5)
    _ rfl b k).trans ?_
  by_cases hk : k.val < 128
  · simp only [av, cat, dif_pos hk]
    exact v20_row x0 x2 x3 b ⟨k.val, hk⟩
  · simp only [av, cat, dif_neg hk]
    exact v25_row x1 x4 x5 b _

/-! ## The gated branches -/

/-- The joined embeddings against the first affinity weight. -/
theorem v28_row (q : Fin 128) :
    val_main_v28 (F := Ideal) x0 x1 x2 x3 x4 x5 x6 (ix2 b q) = lin (mat x6) (av (mat x2) (vec x3) (mat x4) (vec x5) (rowOf x0 b) (rowOf x1 b)) q := by
  rw [val_main_v28_apply]
  have el : ∀ k : Fin 256, lidx_main_v28 (ix2 b q) k = ix2 b k := fun k => funext fun a => Fin.ext (by match a with | ⟨0, _⟩ => rfl | ⟨1, _⟩ => rfl)
  have er : ∀ k : Fin 256, idx_main_v27 (ridx_main_v28 (ix2 b q) k) = ix2 q k := fun k => funext fun a => Fin.ext (by match a with | ⟨0, _⟩ => rfl | ⟨1, _⟩ => rfl)
  simp only [el, er, val_main_v27_apply, v26_row, lin, mat]

/-- The joined embeddings against the second affinity weight. -/
theorem v30_row (q : Fin 128) :
    val_main_v30 (F := Ideal) x0 x1 x2 x3 x4 x5 x7 (ix2 b q) = lin (mat x7) (av (mat x2) (vec x3) (mat x4) (vec x5) (rowOf x0 b) (rowOf x1 b)) q := by
  rw [val_main_v30_apply]
  have el : ∀ k : Fin 256, lidx_main_v30 (ix2 b q) k = ix2 b k := fun k => funext fun a => Fin.ext (by match a with | ⟨0, _⟩ => rfl | ⟨1, _⟩ => rfl)
  have er : ∀ k : Fin 256, idx_main_v29 (ridx_main_v30 (ix2 b q) k) = ix2 q k := fun k => funext fun a => Fin.ext (by match a with | ⟨0, _⟩ => rfl | ⟨1, _⟩ => rfl)
  simp only [el, er, val_main_v29_apply, v26_row, lin, mat]

/-- The first gated branch. -/
theorem v34_row (q : Fin 128) :
    val_main_v34 (F := Ideal) x0 x1 x2 x3 x4 x5 x6 (ix2 b q) = att (mat x2) (vec x3) (mat x4) (vec x5) (rowOf x0 b) (rowOf x1 b) (mat x6) (emb (mat x2) (vec x3) (rowOf x0 b)) q := by
  rw [val_main_v34_apply, val_main_v33_apply, val_main_v31_apply, val_main_v32_apply, v20_row, v28_row]
  simp only [val_main_cst_3_apply, Ideal.ofBits_def, Ideal.mulf_def, Ideal.hostDivf_def, Ideal.hostUnary_tanh_def, att, gate,
    sixteen]

/-- The second gated branch. -/
theorem v38_row (q : Fin 128) :
    val_main_v38 (F := Ideal) x0 x1 x2 x3 x4 x5 x7 (ix2 b q) = att (mat x2) (vec x3) (mat x4) (vec x5) (rowOf x0 b) (rowOf x1 b) (mat x7) (emb (mat x4) (vec x5) (rowOf x1 b)) q := by
  rw [val_main_v38_apply, val_main_v37_apply, val_main_v35_apply, val_main_v36_apply, v25_row, v30_row]
  simp only [val_main_cst_4_apply, Ideal.ofBits_def, Ideal.mulf_def, Ideal.hostDivf_def, Ideal.hostUnary_tanh_def, att, gate,
    sixteen]

/-! ## The hidden layers -/

/-- The first modality's hidden layer. -/
theorem v44_row (q : Fin 32) :
    val_main_v44 (F := Ideal) x0 x1 x2 x3 x4 x5 x6 x8 x10 (ix2 b q) = hidden (mat x10) (mat x8) (att (mat x2) (vec x3) (mat x4) (vec x5) (rowOf x0 b) (rowOf x1 b) (mat x6) (emb (mat x2) (vec x3) (rowOf x0 b))) (emb (mat x2) (vec x3) (rowOf x0 b)) q := by
  rw [val_main_v44_apply, val_main_v43_apply, val_main_v40_apply, val_main_v42_apply, val_main_call0_v0_apply]
  have el40 : ∀ k : Fin 128, lidx_main_v40 (ix2 b q) k = ix2 b k := fun k => funext fun a => Fin.ext (by match a with | ⟨0, _⟩ => rfl | ⟨1, _⟩ => rfl)
  have er40 : ∀ k : Fin 128, idx_main_v39 (ridx_main_v40 (ix2 b q) k) = ix2 q k := fun k => funext fun a => Fin.ext (by match a with | ⟨0, _⟩ => rfl | ⟨1, _⟩ => rfl)
  have el42 : ∀ k : Fin 128, lidx_main_v42 (ix2 b q) k = ix2 b k := fun k => funext fun a => Fin.ext (by match a with | ⟨0, _⟩ => rfl | ⟨1, _⟩ => rfl)
  have er42 : ∀ k : Fin 128, idx_main_v41 (ridx_main_v42 (ix2 b q) k) = ix2 q k := fun k => funext fun a => Fin.ext (by match a with | ⟨0, _⟩ => rfl | ⟨1, _⟩ => rfl)
  simp only [el40, er40, el42, er42, val_main_v39_apply, val_main_v41_apply, v34_row, v20_row, val_main_call0_cst_apply,
    Ideal.ofBits_def, Ideal.addf_def, Ideal.maximumf_def, Cert.RowSpec.hidden, relu, lin, mat, zero32]

/-- The second modality's hidden layer. -/
theorem v50_row (q : Fin 32) :
    val_main_v50 (F := Ideal) x0 x1 x2 x3 x4 x5 x7 x9 x11 (ix2 b q) = hidden (mat x11) (mat x9) (att (mat x2) (vec x3) (mat x4) (vec x5) (rowOf x0 b) (rowOf x1 b) (mat x7) (emb (mat x4) (vec x5) (rowOf x1 b))) (emb (mat x4) (vec x5) (rowOf x1 b)) q := by
  rw [val_main_v50_apply, val_main_v49_apply, val_main_v46_apply, val_main_v48_apply, val_main_call1_v0_apply]
  have el46 : ∀ k : Fin 128, lidx_main_v46 (ix2 b q) k = ix2 b k := fun k => funext fun a => Fin.ext (by match a with | ⟨0, _⟩ => rfl | ⟨1, _⟩ => rfl)
  have er46 : ∀ k : Fin 128, idx_main_v45 (ridx_main_v46 (ix2 b q) k) = ix2 q k := fun k => funext fun a => Fin.ext (by match a with | ⟨0, _⟩ => rfl | ⟨1, _⟩ => rfl)
  have el48 : ∀ k : Fin 128, lidx_main_v48 (ix2 b q) k = ix2 b k := fun k => funext fun a => Fin.ext (by match a with | ⟨0, _⟩ => rfl | ⟨1, _⟩ => rfl)
  have er48 : ∀ k : Fin 128, idx_main_v47 (ridx_main_v48 (ix2 b q) k) = ix2 q k := fun k => funext fun a => Fin.ext (by match a with | ⟨0, _⟩ => rfl | ⟨1, _⟩ => rfl)
  simp only [el46, er46, el48, er48, val_main_v45_apply, val_main_v47_apply, v38_row, v25_row, val_main_call1_cst_apply,
    Ideal.ofBits_def, Ideal.addf_def, Ideal.maximumf_def, Cert.RowSpec.hidden, relu, lin, mat, zero32]

/-! ## The logits and their join -/

/-- The first modality's logits. -/
theorem v58_row (q : Fin 8) :
    val_main_v58 (F := Ideal) x0 x1 x2 x3 x4 x5 x6 x8 x10 x12 x14 x15 (ix2 b q) = attA (mat x2) (vec x3) (mat x4) (vec x5) (mat x6) (mat x8) (mat x10) (mat x12) (mat x14) (vec x15) (rowOf x0 b) (rowOf x1 b) q := by
  rw [val_main_v58_apply, val_main_v55_apply, val_main_v52_apply, val_main_v54_apply, val_main_v57_apply, val_main_v56_apply]
  have el52 : ∀ k : Fin 32, lidx_main_v52 (ix2 b q) k = ix2 b k := fun k => funext fun a => Fin.ext (by match a with | ⟨0, _⟩ => rfl | ⟨1, _⟩ => rfl)
  have er52 : ∀ k : Fin 32, idx_main_v51 (ridx_main_v52 (ix2 b q) k) = ix2 q k := fun k => funext fun a => Fin.ext (by match a with | ⟨0, _⟩ => rfl | ⟨1, _⟩ => rfl)
  have el54 : ∀ k : Fin 128, lidx_main_v54 (ix2 b q) k = ix2 b k := fun k => funext fun a => Fin.ext (by match a with | ⟨0, _⟩ => rfl | ⟨1, _⟩ => rfl)
  have er54 : ∀ k : Fin 128, idx_main_v53 (ridx_main_v54 (ix2 b q) k) = ix2 q k := fun k => funext fun a => Fin.ext (by match a with | ⟨0, _⟩ => rfl | ⟨1, _⟩ => rfl)
  have eb : idx_main_v56 (idx_main_v57 (ix2 b q)) = ix1 q := funext fun a => Fin.ext (by match a with | ⟨0, _⟩ => rfl)
  simp only [el52, er52, el54, er54, eb, val_main_v51_apply, val_main_v53_apply, v44_row, v20_row, Ideal.addf_def, attA, logits,
    lin, mat, vec]

/-- The second modality's logits. -/
theorem v66_row (q : Fin 8) :
    val_main_v66 (F := Ideal) x0 x1 x2 x3 x4 x5 x7 x9 x11 x13 x16 x17 (ix2 b q) = attV (mat x2) (vec x3) (mat x4) (vec x5) (mat x7) (mat x9) (mat x11) (mat x13) (mat x16) (vec x17) (rowOf x0 b) (rowOf x1 b) q := by
  rw [val_main_v66_apply, val_main_v63_apply, val_main_v60_apply, val_main_v62_apply, val_main_v65_apply, val_main_v64_apply]
  have el60 : ∀ k : Fin 32, lidx_main_v60 (ix2 b q) k = ix2 b k := fun k => funext fun a => Fin.ext (by match a with | ⟨0, _⟩ => rfl | ⟨1, _⟩ => rfl)
  have er60 : ∀ k : Fin 32, idx_main_v59 (ridx_main_v60 (ix2 b q) k) = ix2 q k := fun k => funext fun a => Fin.ext (by match a with | ⟨0, _⟩ => rfl | ⟨1, _⟩ => rfl)
  have el62 : ∀ k : Fin 128, lidx_main_v62 (ix2 b q) k = ix2 b k := fun k => funext fun a => Fin.ext (by match a with | ⟨0, _⟩ => rfl | ⟨1, _⟩ => rfl)
  have er62 : ∀ k : Fin 128, idx_main_v61 (ridx_main_v62 (ix2 b q) k) = ix2 q k := fun k => funext fun a => Fin.ext (by match a with | ⟨0, _⟩ => rfl | ⟨1, _⟩ => rfl)
  have eb : idx_main_v64 (idx_main_v65 (ix2 b q)) = ix1 q := funext fun a => Fin.ext (by match a with | ⟨0, _⟩ => rfl)
  simp only [el60, er60, el62, er62, eb, val_main_v59_apply, val_main_v61_apply, v50_row, v25_row, Ideal.addf_def, attV, logits,
    lin, mat, vec]

/-- Both modalities' logits side by side. -/
theorem v67_row (k : Fin 16) :
    val_main_v67 (F := Ideal) x0 x1 x2 x3 x4 x5 x6 x7 x8 x9 x10 x11 x12 x13 x14 x15 x16 x17 (ix2 b k)
      = cat (a := 8) (b := 8) (c := 16) rfl (attA (mat x2) (vec x3) (mat x4) (vec x5) (mat x6) (mat x8) (mat x10) (mat x12) (mat x14) (vec x15) (rowOf x0 b) (rowOf x1 b)) (attV (mat x2) (vec x3) (mat x4) (vec x5) (mat x7) (mat x9) (mat x11) (mat x13) (mat x16) (vec x17) (rowOf x0 b) (rowOf x1 b)) k := by
  unfold val_main_v67
  refine (Cert.RowOps.concatenate_cols_apply (val_main_v58 (F := Ideal) x0 x1 x2 x3 x4 x5 x6 x8 x10 x12 x14 x15)
    (val_main_v66 (F := Ideal) x0 x1 x2 x3 x4 x5 x7 x9 x11 x13 x16 x17) _ rfl b k).trans ?_
  by_cases hk : k.val < 8
  · simp only [cat, dif_pos hk]
    exact v58_row x0 x1 x2 x3 x4 x5 x6 x8 x10 x12 x14 x15 b ⟨k.val, hk⟩
  · simp only [cat, dif_neg hk]
    exact v66_row x0 x1 x2 x3 x4 x5 x7 x9 x11 x13 x16 x17 b _

/-! ## The regressor -/

/-- The regressor's hidden layer. -/
theorem v72_row (q : Fin 128) :
    val_main_v72 (F := Ideal) x0 x1 x2 x3 x4 x5 x6 x7 x8 x9 x10 x11 x12 x13 x14 x15 x16 x17 x18 x19 (ix2 b q) = hid (mat x2) (vec x3) (mat x4) (vec x5) (mat x6) (mat x7) (mat x8) (mat x9) (mat x10) (mat x11) (mat x12) (mat x13) (mat x14) (vec x15) (mat x16) (vec x17) (mat x18) (vec x19) (rowOf x0 b) (rowOf x1 b) q := by
  rw [val_main_v72_apply, val_main_v69_apply, val_main_v71_apply, val_main_v70_apply]
  have el : ∀ k : Fin 16, lidx_main_v69 (ix2 b q) k = ix2 b k := fun k => funext fun a => Fin.ext (by match a with | ⟨0, _⟩ => rfl | ⟨1, _⟩ => rfl)
  have er : ∀ k : Fin 16, idx_main_v68 (ridx_main_v69 (ix2 b q) k) = ix2 q k := fun k => funext fun a => Fin.ext (by match a with | ⟨0, _⟩ => rfl | ⟨1, _⟩ => rfl)
  have eb : idx_main_v70 (idx_main_v71 (ix2 b q)) = ix1 q := funext fun a => Fin.ext (by match a with | ⟨0, _⟩ => rfl)
  simp only [el, er, eb, val_main_v68_apply, v67_row, Ideal.addf_def, hid, lin, mat, vec]

/-- The result column. -/
theorem v77_row :
    val_main_v77 (F := Ideal) x0 x1 x2 x3 x4 x5 x6 x7 x8 x9 x10 x11 x12 x13 x14 x15 x16 x17 x18 x19 x20 x21 (ix2 b (0 : Fin 1))
      = out (mat x2) (vec x3) (mat x4) (vec x5) (mat x6) (mat x7) (mat x8) (mat x9) (mat x10) (mat x11) (mat x12) (mat x13) (mat x14) (vec x15) (mat x16) (vec x17) (mat x18) (vec x19) (mat x20) (vec x21) (rowOf x0 b) (rowOf x1 b) := by
  rw [val_main_v77_apply, val_main_v74_apply, val_main_v76_apply, val_main_v75_apply]
  have el : ∀ k : Fin 128, lidx_main_v74 (ix2 b (0 : Fin 1)) k = ix2 b k := fun k => funext fun a => Fin.ext (by match a with | ⟨0, _⟩ => rfl | ⟨1, _⟩ => rfl)
  have er : ∀ k : Fin 128, idx_main_v73 (ridx_main_v74 (ix2 b (0 : Fin 1)) k) = ix2 (0 : Fin 1) k := fun k => funext fun a => Fin.ext (by match a with | ⟨0, _⟩ => rfl | ⟨1, _⟩ => rfl)
  have eb : idx_main_v75 (idx_main_v76 (ix2 b (0 : Fin 1))) = ix1 (0 : Fin 1) := funext fun a => Fin.ext (by match a with | ⟨0, _⟩ => rfl)
  simp only [el, er, eb, val_main_v73_apply, v72_row, Ideal.addf_def, out, lin, mat, vec]

end Stages

/-- The reference's result at `(b, 0)` is the row function of row `b`. -/
theorem ref_out (x0 : (⟨S500000x88, .f32⟩ : BufTy).Contents (Elt Ideal)) (x1 : (⟨S500000x168, .f32⟩ : BufTy).Contents (Elt Ideal)) (x2 : (⟨S128x88, .f32⟩ : BufTy).Contents (Elt Ideal)) (x3 : (⟨S128, .f32⟩ : BufTy).Contents (Elt Ideal)) (x4 : (⟨S128x168, .f32⟩ : BufTy).Contents (Elt Ideal)) (x5 : (⟨S128, .f32⟩ : BufTy).Contents (Elt Ideal)) (x6 : (⟨S128x256, .f32⟩ : BufTy).Contents (Elt Ideal)) (x7 : (⟨S128x256, .f32⟩ : BufTy).Contents (Elt Ideal)) (x8 : (⟨S32x128, .f32⟩ : BufTy).Contents (Elt Ideal)) (x9 : (⟨S32x128, .f32⟩ : BufTy).Contents (Elt Ideal)) (x10 : (⟨S32x128, .f32⟩ : BufTy).Contents (Elt Ideal)) (x11 : (⟨S32x128, .f32⟩ : BufTy).Contents (Elt Ideal)) (x12 : (⟨S8x32, .f32⟩ : BufTy).Contents (Elt Ideal)) (x13 : (⟨S8x32, .f32⟩ : BufTy).Contents (Elt Ideal)) (x14 : (⟨S8x128, .f32⟩ : BufTy).Contents (Elt Ideal)) (x15 : (⟨S8, .f32⟩ : BufTy).Contents (Elt Ideal)) (x16 : (⟨S8x128, .f32⟩ : BufTy).Contents (Elt Ideal)) (x17 : (⟨S8, .f32⟩ : BufTy).Contents (Elt Ideal)) (x18 : (⟨S128x16, .f32⟩ : BufTy).Contents (Elt Ideal)) (x19 : (⟨S128, .f32⟩ : BufTy).Contents (Elt Ideal)) (x20 : (⟨S1x128, .f32⟩ : BufTy).Contents (Elt Ideal)) (x21 : (⟨S1, .f32⟩ : BufTy).Contents (Elt Ideal)) (b : Fin 500000) :
    val_main_v77 (F := Ideal) x0 x1 x2 x3 x4 x5 x6 x7 x8 x9 x10 x11 x12 x13 x14 x15 x16 x17 x18 x19 x20 x21 (ix2 b (0 : Fin 1))
      = out (mat x2) (vec x3) (mat x4) (vec x5) (mat x6) (mat x7) (mat x8) (mat x9) (mat x10) (mat x11) (mat x12) (mat x13) (mat x14) (vec x15) (mat x16) (vec x17) (mat x18) (vec x19) (mat x20) (vec x21) (rowOf x0 b) (rowOf x1 b) :=
  v77_row x0 x1 x2 x3 x4 x5 x6 x7 x8 x9 x10 x11 x12 x13 x14 x15 x16 x17 x18 x19 x20 x21 b

end Cert.RefRows

end
-- ==== Proof.lean ====
/-
  The certificate of the row-wise fused network kernel against its plain reference.

  Both programs compute, for each of the 500000 rows, the same function of that row of the two feature arrays and of
  the weights: the two rows normalised by their floored Euclidean norms, two linear embeddings, a gate
  `tanh(e ⊙ (av · Aᵀ) / 16)` per modality over the joined embeddings, a rectified hidden layer, eight logits per
  modality, and a two-layer regressor over the sixteen joined logits (`RowSpec.out`).  The kernel works on blocks of
  2000 rows against transposed copies of the weights staged whole; the reference contracts whole arrays against the
  transposes.  On the extended reals a change of float format is the identity and every product and sum is exact, so
  the two results agree entry by entry with no side condition on the inputs: both are `RowSpec.G` of the arguments.

  * The kernel's result array after its run is `G` of the arguments (`KernelArray.run`: the body's stored block row by
    row, `KernelRows.body_apply`; each staged block as the specification reads it; the 250 blocks cover the array).
  * The reference's result is `G` of the arguments row by row (`RefRows.ref_out`, over the reference's run read one
    operation at a time).
  * The three frames are the generated frame runs (the reference's is its run with the result dropped); the
    idealization changes nothing the ledger records, so its conjunct is trivial.
-/
import proofs.«118040_j58291296141385_1_alg».proof.Defs
import proofs.«118040_j58291296141385_1_alg».proof.Proof.Gen.Kernel
import proofs.«118040_j58291296141385_1_alg».proof.Proof.Gen.Kernel.Skeleton
import proofs.«118040_j58291296141385_1_alg».proof.Proof.Gen.Kernel.Launch
import proofs.«118040_j58291296141385_1_alg».proof.Proof.Gen.Kernel.Points
import proofs.«118040_j58291296141385_1_alg».proof.Proof.Gen.Kernel.Frame
import proofs.«118040_j58291296141385_1_alg».proof.Proof.Gen.KernelIdeal
import proofs.«118040_j58291296141385_1_alg».proof.Proof.Gen.KernelIdeal.Skeleton
import proofs.«118040_j58291296141385_1_alg».proof.Proof.Gen.KernelIdeal.Launch
import proofs.«118040_j58291296141385_1_alg».proof.Proof.Gen.KernelIdeal.Points
import proofs.«118040_j58291296141385_1_alg».proof.Proof.Gen.KernelIdeal.Frame
import proofs.«118040_j58291296141385_1_alg».proof.Proof.Gen.ReferenceIdeal
import proofs.«118040_j58291296141385_1_alg».proof.Proof.Gen.Pre_finite_inputs
import proofs.«118040_j58291296141385_1_alg».proof.Proof.Gen.KernelIdeal.Value
import proofs.«118040_j58291296141385_1_alg».proof.Proof.Gen.ReferenceIdeal.Run
import proofs.«118040_j58291296141385_1_alg».proof.Proof.Gen.ReferenceIdeal.Read
import proofs.«118040_j58291296141385_1_alg».proof.Proof.KernelArray
import proofs.«118040_j58291296141385_1_alg».proof.Proof.RefRows
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The idealized reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass recorded no rewrite. -/
theorem preserves : Cert.preserves_Kernel_KernelIdeal := trivial

/-- Run from memories that agree on the arguments, both idealized programs end with the result array at `G` of those
    arguments: the kernel by its blocks (`KernelArray.run`), the reference row by row (`RefRows.ref_out`). -/
theorem algebraic : Cert.algebraic_KernelIdeal_ReferenceIdeal := by
  intro m ρ m' ρ' _ hagree
  refine ⟨fun c => Cert.KernelArray.GA m c, Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21⟩ := hagree c
  rw [Cert.ReferenceIdeal.Read.val_main_v77_eq, h0, h1, h2, h3, h4, h5, h6, h7, h8, h9, h10, h11, h12, h13, h14, h15, h16, h17, h18, h19, h20, h21]
  funext i
  obtain ⟨b, u, rfl⟩ : ∃ (b : Fin 500000) (u : Fin 1), i = ix2 b u := ⟨i 0, i 1, eq_ix2 i⟩
  obtain rfl : u = 0 := Subsingleton.elim _ _
  exact Cert.RefRows.ref_out _ _ _ _ _ _ _ _ _ _ _ _ _ _ _ _ _ _ _ _ _ _ b

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
